-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256x128 : Shape := ⟨3, ![1024, 256, 128]⟩
abbrev S1024x256x32 : Shape := ⟨3, ![1024, 256, 32]⟩
abbrev S1024x256 : Shape := ⟨2, ![1024, 256]⟩
abbrev S128x512 : Shape := ⟨2, ![128, 512]⟩
abbrev S32x512 : Shape := ⟨2, ![32, 512]⟩
abbrev S512 : Shape := ⟨1, ![512]⟩
abbrev S512x512 : Shape := ⟨2, ![512, 512]⟩
abbrev S512x1 : Shape := ⟨2, ![512, 1]⟩
abbrev S_ : Shape := ⟨0, ![]⟩

class Facts : Prop where
  bcast_S_S1024x256x128 : S_.BroadcastsInDim S1024x256x128 (![] : Fin 0 → Fin S1024x256x128.rank)
  reducesTo_S1024x256x128_S_d0_1_2 : S1024x256x128.ReducesTo [0, 1, 2] S_
  h_S_ : 0 < S_.numel
  bcast_S_S1024x256x32 : S_.BroadcastsInDim S1024x256x32 (![] : Fin 0 → Fin S1024x256x32.rank)
  reducesTo_S1024x256x32_S_d0_1_2 : S1024x256x32.ReducesTo [0, 1, 2] S_
  bcast_S_S1024x256 : S_.BroadcastsInDim S1024x256 (![] : Fin 0 → Fin S1024x256.rank)
  reducesTo_S1024x256_S_d0_1 : S1024x256.ReducesTo [0, 1] S_
  bcast_S_S128x512 : S_.BroadcastsInDim S128x512 (![] : Fin 0 → Fin S128x512.rank)
  reducesTo_S128x512_S_d0_1 : S128x512.ReducesTo [0, 1] S_
  bcast_S_S32x512 : S_.BroadcastsInDim S32x512 (![] : Fin 0 → Fin S32x512.rank)
  reducesTo_S32x512_S_d0_1 : S32x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x1 : S_.BroadcastsInDim S512x1 (![] : Fin 0 → Fin S512x1.rank)
  reducesTo_S512x1_S_d0_1 : S512x1.ReducesTo [0, 1] S_

variable [Facts]

def fn_part2 {F : FTy → Type} [FloatOps F] (main_arg7 : FVec F S512 .f32) (main_arg8 : FVec F S512x1 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x1 .f32 := Host.absf main_arg8
  let main_cst_14 : FVec F S_ .f32 := constant S_ .f32 0x7F800000#32
  let main_v40 : FVec F S512x1 .f32 := broadcastInDim S512x1 ![] bcast_S_S512x1 main_cst_14
  let main_v41 : IVec S512x1 1 := cmpf .olt main_v39 main_v40
  let main_c_15 : IVec S_ 1 := constantI S_ 1 1#1
  let main_v42 : IVec S_ 1 := (fun x v => Host.reduce IntOp.andi x v reducesTo_S512x1_S_d0_1 h_S_) main_v41 main_c_15
  let main_v43 : IVec S_ 1 := andi main_v38 main_v42
  main_v43

def fn_part1 {F : FTy → Type} [FloatOps F] (main_arg4 : FVec F S32x512 .f32) (main_arg5 : FVec F S512 .f32) (main_arg6 : FVec F S512x512 .f32) (main_arg7 : FVec F S512 .f32) (main_arg8 : FVec F S512x1 .f32) (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  let main_v19 : FVec F S32x512 .f32 := Host.absf main_arg4
  let main_cst_6 : FVec F S_ .f32 := constant S_ .f32 0x7F800000#32
  let main_v20 : FVec F S32x512 .f32 := broadcastInDim S32x512 ![] bcast_S_S32x512 main_cst_6
  let main_v21 : IVec S32x512 1 := cmpf .olt main_v19 main_v20
  let main_c_7 : IVec S_ 1 := constantI S_ 1 1#1
  let main_v22 : IVec S_ 1 := (fun x v => Host.reduce IntOp.andi x v reducesTo_S32x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_v33

def fn {F : FTy → Type} [FloatOps F] (main_arg0 : FVec F S1024x256x128 .f32) (main_arg1 : FVec F S1024x256x32 .f32) (main_arg2 : FVec F S1024x256 .f32) (main_arg3 : FVec F S128x512 .f32) (main_arg4 : FVec F S32x512 .f32) (main_arg5 : FVec F S512 .f32) (main_arg6 : FVec F S512x512 .f32) (main_arg7 : FVec F S512 .f32) (main_arg8 : FVec F S512x1 .f32) : IVec S_ 1 :=
  let main_v0 : FVec F S1024x256x128 .f32 := Host.absf main_arg0
  let main_cst : FVec F S_ .f32 := constant S_ .f32 0x7F800000#32
  let main_v1 : FVec F S1024x256x128 .f32 := broadcastInDim S1024x256x128 ![] bcast_S_S1024x256x128 main_cst
  let main_v2 : IVec S1024x256x128 1 := cmpf .olt main_v0 main_v1
  let main_c : IVec S_ 1 := constantI S_ 1 1#1
  let main_v3 : IVec S_ 1 := (fun x v => Host.reduce IntOp.andi x v reducesTo_S1024x256x128_S_d0_1_2 h_S_) main_v2 main_c
  let main_v4 : FVec F S1024x256x32 .f32 := Host.absf main_arg1
  let main_cst_0 : FVec F S_ .f32 := constant S_ .f32 0x7F800000#32
  let main_v5 : FVec F S1024x256x32 .f32 := broadcastInDim S1024x256x32 ![] bcast_S_S1024x256x32 main_cst_0
  let main_v6 : IVec S1024x256x32 1 := cmpf .olt main_v4 main_v5
  let main_c_1 : IVec S_ 1 := constantI S_ 1 1#1
  let main_v7 : IVec S_ 1 := (fun x v => Host.reduce IntOp.andi x v reducesTo_S1024x256x32_S_d0_1_2 h_S_) main_v6 main_c_1
  let main_v8 : IVec S_ 1 := andi main_v3 main_v7
  let main_v9 : FVec F S1024x256 .f32 := Host.absf main_arg2
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  let main_v14 : FVec F S128x512 .f32 := Host.absf main_arg3
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_arg4 main_arg5 main_arg6 main_arg7 main_arg8 main_v13 main_v16
-- ==== Kernel.lean ====
abbrev S1024x256x128 : Shape := ⟨3, ![1024, 256, 128]⟩
abbrev S1024x256x32 : Shape := ⟨3, ![1024, 256, 32]⟩
abbrev S1024x256 : Shape := ⟨2, ![1024, 256]⟩
abbrev S128x512 : Shape := ⟨2, ![128, 512]⟩
abbrev S32x512 : Shape := ⟨2, ![32, 512]⟩
abbrev S512 : Shape := ⟨1, ![512]⟩
abbrev S512x512 : Shape := ⟨2, ![512, 512]⟩
abbrev S512x1 : Shape := ⟨2, ![512, 1]⟩
abbrev S262144x128 : Shape := ⟨2, ![262144, 128]⟩
abbrev S262144x32 : Shape := ⟨2, ![262144, 32]⟩
abbrev S1x512 : Shape := ⟨2, ![1, 512]⟩
abbrev S262144x1 : Shape := ⟨2, ![262144, 1]⟩
abbrev S2048x128 : Shape := ⟨2, ![2048, 128]⟩
abbrev S2048x32 : Shape := ⟨2, ![2048, 32]⟩
abbrev S2048x1 : Shape := ⟨2, ![2048, 1]⟩
abbrev S2048x512 : Shape := ⟨2, ![2048, 512]⟩
abbrev S1024x1 : Shape := ⟨2, ![1024, 1]⟩
abbrev S1024 : Shape := ⟨1, ![1024]⟩
abbrev S1x1024x1 : Shape := ⟨3, ![1, 1024, 1]⟩
abbrev S1 : Shape := ⟨1, ![1]⟩
abbrev S1x1x1 : Shape := ⟨3, ![1, 1, 1]⟩

abbrev nBuf : Space → Nat
  | .hbm => 19
  | .vmem => 16
  | .smem => 0
  | _ => 0

abbrev bufTy : (tb : Table) → Fin (tcTables nBuf tb) → BufTy
  | .hbm, ⟨0, _⟩ => ⟨S1024x256x128, .f32⟩
  | .hbm, ⟨1, _⟩ => ⟨S1024x256x32, .f32⟩
  | .hbm, ⟨2, _⟩ => ⟨S1024x256, .f32⟩
  | .hbm, ⟨3, _⟩ => ⟨S128x512, .f32⟩
  | .hbm, ⟨4, _⟩ => ⟨S32x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x1, .f32⟩
  | .hbm, ⟨9, _⟩ => ⟨S262144x128, .f32⟩
  | .hbm, ⟨10, _⟩ => ⟨S262144x32, .f32⟩
  | .hbm, ⟨11, _⟩ => ⟨S1x512, .f32⟩
  | .hbm, ⟨12, _⟩ => ⟨S1x512, .f32⟩
  | .hbm, ⟨13, _⟩ => ⟨S262144x1, .f32⟩
  | .hbm, ⟨14, _⟩ => ⟨S1024x256, .f32⟩
  | .hbm, ⟨15, _⟩ => ⟨S1024x1, .f32⟩
  | .hbm, ⟨16, _⟩ => ⟨S1024x1, .f32⟩
  | .hbm, ⟨17, _⟩ => ⟨S1024, .f32⟩
  | .hbm, ⟨18, _⟩ => ⟨S1024, .f32⟩
  | .local _ .vmem, ⟨0, _⟩ => ⟨S2048x128, .f32⟩
  | .local _ .vmem, ⟨1, _⟩ => ⟨S2048x128, .f32⟩
  | .local _ .vmem, ⟨2, _⟩ => ⟨S2048x32, .f32⟩
  | .local _ .vmem, ⟨3, _⟩ => ⟨S2048x32, .f32⟩
  | .local _ .vmem, ⟨4, _⟩ => ⟨S128x512, .f32⟩
  | .local _ .vmem, ⟨5, _⟩ => ⟨S32x512, .f32⟩
  | .local _ .vmem, ⟨6, _⟩ => ⟨S1x512, .f32⟩
  | .local _ .vmem, ⟨7, _⟩ => ⟨S512x512, .f32⟩
  | .local _ .vmem, ⟨8, _⟩ => ⟨S1x512, .f32⟩
  | .local _ .vmem, ⟨9, _⟩ => ⟨S512x1, .f32⟩
  | .local _ .vmem, ⟨10, _⟩ => ⟨S2048x1, .f32⟩
  | .local _ .vmem, ⟨11, _⟩ => ⟨S2048x1, .f32⟩
  | .local _ .vmem, ⟨12, _⟩ => ⟨S1024x256, .f32⟩
  | .local _ .vmem, ⟨13, _⟩ => ⟨S1024x256, .f32⟩
  | .local _ .vmem, ⟨14, _⟩ => ⟨S1024x1, .f32⟩
  | .local _ .vmem, ⟨15, _⟩ => ⟨S1024x1, .f32⟩
  | _, _ => ⟨S1024x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem1_0 : DmaSem sig := 13
abbrev cc1_sem2_0 : DmaSem sig := 14
abbrev cc1_sem3_0 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := .none

abbrev stage1_0 : Fin 1 → Memref sig .tc .vmem S1024x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1024x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1024x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

class Facts₀ : Prop where
  shapeCasts_S1024x256x128_S262144x128 : S1024x256x128.ShapeCasts S262144x128
  shapeCasts_S1024x256x32_S262144x32 : S1024x256x32.ShapeCasts S262144x32
  shapeCasts_S512_S1x512 : S512.ShapeCasts S1x512
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  bitsLt_bf16_f32 : FTy.bits .bf16 < FTy.bits .f32
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  inb_S128x512_S128x512_0_0 : ∀ a, (![0, 0] : Fin 2 → Nat) a + S128x512.size a ≤ S128x512.size a
  h_S128x512 : 0 < S128x512.numel
  inb_S32x512_S32x512_0_0 : ∀ a, (![0, 0] : Fin 2 → Nat) a + S32x512.size a ≤ S32x512.size a
  h_S32x512 : 0 < S32x512.numel
  inb_S512x512_S512x512_0_0 : ∀ a, (![0, 0] : Fin 2 → Nat) a + S512x512.size a ≤ S512x512.size a
  h_S512x512 : 0 < S512x512.numel
  inb_S512x1_S512x1_0_0 : ∀ a, (![0, 0] : Fin 2 → Nat) a + S512x1.size a ≤ S512x1.size a
  h_S512x1 : 0 < S512x1.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S2048x1_S2048x1_0_0 : ∀ a, (![0, 0] : Fin 2 → Nat) a + S2048x1.size a ≤ S2048x1.size a
  h_S2048x1 : 0 < S2048x1.numel
  shapeCasts_S262144x1_S1024x256 : S262144x1.ShapeCasts S1024x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  reduces_S1024x256_S1024 : S1024x256.Reduces [1] S1024
  shapeCasts_S1024_S1024x1 : S1024.ShapeCasts S1024x1
  shapeCasts_S1024x1_S1x1024x1 : S1024x1.ShapeCasts S1x1024x1
  reduces_S1x1024x1_S1 : S1x1024x1.Reduces [1, 2] S1
  shapeCasts_S1_S1x1x1 : S1.ShapeCasts S1x1x1
  inpos_S1x1x1_p0_0_0 : ∀ a, (![0, 0, 0] : Fin 3 → Nat) a < S1x1x1.size a
  inb_S1024x1_S1024x1_0_0 : ∀ a, (![0, 0] : Fin 2 → Nat) a + S1024x1.size a ≤ S1024x1.size a
  h_S1024x1 : 0 < S1024x1.numel
  shapeCasts_S1024x1_S1024 : S1024x1.ShapeCasts S1024
  dot_S2048x128_S128x512_S2048x512_1_0_0_1_n_n_wf : DotDims.WF S2048x128 S128x512 S2048x512 [1] [0] [0] [1] [] []
  dot_S2048x32_S32x512_S2048x512_1_0_0_1_n_n_wf : DotDims.WF S2048x32 S32x512 S2048x512 [1] [0] [0] [1] [] []
  dot_S2048x512_S512x512_S2048x512_1_0_0_1_n_n_wf : DotDims.WF S2048x512 S512x512 S2048x512 [1] [0] [0] [1] [] []
  dot_S2048x512_S512x1_S2048x1_1_0_0_1_n_n_wf : DotDims.WF S2048x512 S512x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S262144x128.size a
  hwx0_0 : ∀ i : grid0.Coords, EltTy.bits .f32 = 32 ∨ (Rect.block (s := S262144x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x32.size a ≤ S262144x32.size a
  hwx0_1 : ∀ i : grid0.Coords, EltTy.bits .f32 = 32 ∨ (Rect.block (s := S262144x32) S2048x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .f32 = 32 ∨ (Rect.block (s := S128x512) S128x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x512.size a ≤ S32x512.size a
  hwx0_3 : ∀ i : grid0.Coords, EltTy.bits .f32 = 32 ∨ (Rect.block (s := S32x512) S32x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x1.size a ≤ S512x1.size a
  hwx0_7 : ∀ i : grid0.Coords, EltTy.bits .f32 = 32 ∨ (Rect.block (s := S512x1) S512x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x1.size a ≤ S262144x1.size a
  hwx0_8 : ∀ i : grid0.Coords, EltTy.bits .f32 = 32 ∨ (Rect.block (s := S262144x1) S2048x1.size (cc0_transform_8 i) (hinb0_8 i)).WholeWords (EltTy.packing .f32)
  hstage1_0 : ∀ j, (stage1_0 j).IsWhole
  hstage1_1 : ∀ j, (stage1_1 j).IsWhole
  hstage1_2 : ∀ j, (stage1_2 j).IsWhole
  hstage1_3 : ∀ j, (stage1_3 j).IsWhole

variable [Facts₀]

def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf
def dot_S2048x32_S32x512_S2048x512_1_0_0_1_n_n : DotDims S2048x32 S32x512 S2048x512 where
  lhsContracting := [1]
  rhsContracting := [0]
  lhsNonContracting := [0]
  rhsNonContracting := [1]
  lhsBatch := []
  rhsBatch := []
  wf := dot_S2048x32_S32x512_S2048x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S512x1_S2048x1_1_0_0_1_n_n : DotDims S2048x512 S512x1 S2048x1 where
  lhsContracting := [1]
  rhsContracting := [0]
  lhsNonContracting := [0]
  rhsNonContracting := [1]
  lhsBatch := []
  rhsBatch := []
  wf := dot_S2048x512_S512x1_S2048x1_1_0_0_1_n_n_wf

abbrev win0_0 : Pipeline.Window sig grid0 :=
  Pipeline.Window.ofSpec (Memref.whole main_v0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S32x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S512x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S2048x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.whole (Memref.whole main_v5) false false (stage1_0 0) (sem1_0 0) (Memref.isWhole_whole _) (hstage1_0 0)

abbrev win1_1 : Pipeline.Window sig grid1 :=
  Pipeline.Window.whole (Memref.whole main_arg2) false false (stage1_1 0) (sem1_1 0) (Memref.isWhole_whole _) (hstage1_1 0)

abbrev win1_2 : Pipeline.Window sig grid1 :=
  Pipeline.Window.whole (Memref.whole main_v6_0) true false (stage1_2 0) (sem1_2 0) (Memref.isWhole_whole _) (hstage1_2 0)

abbrev win1_3 : Pipeline.Window sig grid1 :=
  Pipeline.Window.whole (Memref.whole main_v6_1) true false (stage1_3 0) (sem1_3 0) (Memref.isWhole_whole _) (hstage1_3 0)

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1024x256x128 : Shape := ⟨3, ![1024, 256, 128]⟩
abbrev S1024x256x32 : Shape := ⟨3, ![1024, 256, 32]⟩
abbrev S1024x256 : Shape := ⟨2, ![1024, 256]⟩
abbrev S128x512 : Shape := ⟨2, ![128, 512]⟩
abbrev S32x512 : Shape := ⟨2, ![32, 512]⟩
abbrev S512 : Shape := ⟨1, ![512]⟩
abbrev S512x512 : Shape := ⟨2, ![512, 512]⟩
abbrev S512x1 : Shape := ⟨2, ![512, 1]⟩
abbrev S262144x128 : Shape := ⟨2, ![262144, 128]⟩
abbrev S262144x32 : Shape := ⟨2, ![262144, 32]⟩
abbrev S262144x512 : Shape := ⟨2, ![262144, 512]⟩
abbrev S1x512 : Shape := ⟨2, ![1, 512]⟩
abbrev S262144x1 : Shape := ⟨2, ![262144, 1]⟩
abbrev S_ : Shape := ⟨0, ![]⟩
abbrev S1024 : Shape := ⟨1, ![1024]⟩

abbrev nBuf : Space → Nat
  | .hbm => 40
  | .vmem => 0
  | .smem => 0
  | _ => 0

abbrev bufTy : (tb : Table) → Fin (tcTables nBuf tb) → BufTy
  | .hbm, ⟨0, _⟩ => ⟨S1024x256x128, .f32⟩
  | .hbm, ⟨1, _⟩ => ⟨S1024x256x32, .f32⟩
  | .hbm, ⟨2, _⟩ => ⟨S1024x256, .f32⟩
  | .hbm, ⟨3, _⟩ => ⟨S128x512, .f32⟩
  | .hbm, ⟨4, _⟩ => ⟨S32x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x1, .f32⟩
  | .hbm, ⟨9, _⟩ => ⟨S262144x128, .f32⟩
  | .hbm, ⟨10, _⟩ => ⟨S262144x32, .f32⟩
  | .hbm, ⟨11, _⟩ => ⟨S262144x512, .f32⟩
  | .hbm, ⟨12, _⟩ => ⟨S262144x512, .f32⟩
  | .hbm, ⟨13, _⟩ => ⟨S262144x512, .f32⟩
  | .hbm, ⟨14, _⟩ => ⟨S1x512, .f32⟩
  | .hbm, ⟨15, _⟩ => ⟨S262144x512, .f32⟩
  | .hbm, ⟨16, _⟩ => ⟨S262144x512, .f32⟩
  | .hbm, ⟨17, _⟩ => ⟨S262144x512, .f32⟩
  | .hbm, ⟨18, _⟩ => ⟨S262144x512, .f32⟩
  | .hbm, ⟨19, _⟩ => ⟨S1x512, .f32⟩
  | .hbm, ⟨20, _⟩ => ⟨S262144x512, .f32⟩
  | .hbm, ⟨21, _⟩ => ⟨S262144x512, .f32⟩
  | .hbm, ⟨22, _⟩ => ⟨S262144x512, .f32⟩
  | .hbm, ⟨23, _⟩ => ⟨S262144x1, .f32⟩
  | .hbm, ⟨24, _⟩ => ⟨S1024x256, .f32⟩
  | .hbm, ⟨25, _⟩ => ⟨S_, .f32⟩
  | .hbm, ⟨26, _⟩ => ⟨S1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S_, .f32⟩
  | .hbm, ⟨32, _⟩ => ⟨S1024, .f32⟩
  | .hbm, ⟨33, _⟩ => ⟨S1024, .f32⟩
  | .hbm, ⟨34, _⟩ => ⟨S1024, .f32⟩
  | .hbm, ⟨35, _⟩ => ⟨S1024, .f32⟩
  | .hbm, ⟨36, _⟩ => ⟨S_, .f32⟩
  | .hbm, ⟨37, _⟩ => ⟨S_, .f32⟩
  | .hbm, ⟨38, _⟩ => ⟨S1024, .f32⟩
  | .hbm, ⟨39, _⟩ => ⟨S1024, .f32⟩
  | _, _ => ⟨S1024x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]

class Facts₀ : Prop where
  shapeCasts_S1024x256x128_S262144x128 : S1024x256x128.ShapeCasts S262144x128
  shapeCasts_S1024x256x32_S262144x32 : S1024x256x32.ShapeCasts S262144x32
  bcast_S512_S1x512_1 : S512.BroadcastsInDim S1x512 (![1] : Fin 1 → Fin S1x512.rank)
  bcast_S1x512_S262144x512_0_1 : S1x512.BroadcastsInDim S262144x512 (![0, 1] : Fin 2 → Fin S262144x512.rank)
  shapeCasts_S262144x1_S1024x256 : S262144x1.ShapeCasts S1024x256
  reducesTo_S1024x256_S1024_d1 : S1024x256.ReducesTo [1] S1024
  h_S_ : 0 < S_.numel
  reducesTo_S1024_S_d0 : S1024.ReducesTo [0] S_
  bcast_S_S1024 : S_.BroadcastsInDim S1024 (![] : Fin 0 → Fin S1024.rank)
  dot_S262144x128_S128x512_S262144x512_1_0_0_1_n_n_wf : DotDims.WF S262144x128 S128x512 S262144x512 [1] [0] [0] [1] [] []
  dot_S262144x32_S32x512_S262144x512_1_0_0_1_n_n_wf : DotDims.WF S262144x32 S32x512 S262144x512 [1] [0] [0] [1] [] []
  dot_S262144x512_S512x512_S262144x512_1_0_0_1_n_n_wf : DotDims.WF S262144x512 S512x512 S262144x512 [1] [0] [0] [1] [] []
  dot_S262144x512_S512x1_S262144x1_1_0_0_1_n_n_wf : DotDims.WF S262144x512 S512x1 S262144x1 [1] [0] [0] [1] [] []

variable [Facts₀]

def dot_S262144x128_S128x512_S262144x512_1_0_0_1_n_n : DotDims S262144x128 S128x512 S262144x512 where
  lhsContracting := [1]
  rhsContracting := [0]
  lhsNonContracting := [0]
  rhsNonContracting := [1]
  lhsBatch := []
  rhsBatch := []
  wf := dot_S262144x128_S128x512_S262144x512_1_0_0_1_n_n_wf
def dot_S262144x32_S32x512_S262144x512_1_0_0_1_n_n : DotDims S262144x32 S32x512 S262144x512 where
  lhsContracting := [1]
  rhsContracting := [0]
  lhsNonContracting := [0]
  rhsNonContracting := [1]
  lhsBatch := []
  rhsBatch := []
  wf := dot_S262144x32_S32x512_S262144x512_1_0_0_1_n_n_wf
def dot_S262144x512_S512x512_S262144x512_1_0_0_1_n_n : DotDims S262144x512 S512x512 S262144x512 where
  lhsContracting := [1]
  rhsContracting := [0]
  lhsNonContracting := [0]
  rhsNonContracting := [1]
  lhsBatch := []
  rhsBatch := []
  wf := dot_S262144x512_S512x512_S262144x512_1_0_0_1_n_n_wf
def dot_S262144x512_S512x1_S262144x1_1_0_0_1_n_n : DotDims S262144x512 S512x1 S262144x1 where
  lhsContracting := [1]
  rhsContracting := [0]
  lhsNonContracting := [0]
  rhsNonContracting := [1]
  lhsBatch := []
  rhsBatch := []
  wf := dot_S262144x512_S512x1_S262144x1_1_0_0_1_n_n_wf

class Facts : Prop extends Facts₀ where

variable [Facts]
-- ==== Proof.Spec.lean ====
/-
  What both programs compute, written once over the extended reals.

  A batch of 1024 trajectories of 256 steps each. Every step is a pair (state, action): a row of 128 reals and a row
  of 32 reals. A two-layer network with tanh units scores a pair:

      h  j = tanh ((Σ_i s i · W1 (i, j) + Σ_i a i · W2 (i, j)) + b1 j)          (512 first-layer units)
      h' k = tanh (Σ_j h j · W3 (j, k) + b3 k)                                    (512 second-layer units)
      score = Σ_k h' k · w (k, 0)

  The score of a pair depends on that pair's own two rows and on the weights, on nothing else: this is why the rows
  may be scored in blocks of any size and in any order.

  Per trajectory n the scores and the rewards are summed over the steps; the difference of the two sums is shifted by
  its largest value over the batch, exponentiated, and divided by the total of the exponentials (a softmax over the
  batch). Sums here are finite sums on the extended reals, whose addition is commutative and associative, so no order of
  summation is meant by them, and nothing below asks that a value be finite.
-/
import Idealize.ShloMosaic.PureOps.Ideal
import Idealize.ShloMosaic.Lib.ValueIdx

noncomputable section

namespace Cert.Policy

open Idealize.ShloMosaic Idealize.ShloMosaic.ValueIdx

/-! ## The score of one (state, action) pair -/

/-- Unit `j` of the first layer, for a pair with state row `s` and action row `a`. -/
def hidden1 (s : Fin 128 → EReal) (a : Fin 32 → EReal)
    (W1 : (⟨2, ![128, 512]⟩ : Shape).Idx → EReal) (W2 : (⟨2, ![32, 512]⟩ : Shape).Idx → EReal)
    (b1 : Fin 512 → EReal) (j : Fin 512) : EReal :=
  Ideal.tanh ((∑ i : Fin 128, s i * W1 (ix2 i j) + ∑ i : Fin 32, a i * W2 (ix2 i j)) + b1 j)

/-- Unit `k` of the second layer, from the first layer's 512 values. -/
def hidden2 (h : Fin 512 → EReal) (W3 : (⟨2, ![512, 512]⟩ : Shape).Idx → EReal) (b3 : Fin 512 → EReal)
    (k : Fin 512) : EReal :=
  Ideal.tanh (∑ j : Fin 512, h j * W3 (ix2 j k) + b3 k)

/-- The score of a pair: the second layer's values against the output column. -/
def pairScore (s : Fin 128 → EReal) (a : Fin 32 → EReal)
    (W1 : (⟨2, ![128, 512]⟩ : Shape).Idx → EReal) (W2 : (⟨2, ![32, 512]⟩ : Shape).Idx → EReal) (b1 : Fin 512 → EReal)
    (W3 : (⟨2, ![512, 512]⟩ : Shape).Idx → EReal) (b3 : Fin 512 → EReal)
    (w : (⟨2, ![512, 1]⟩ : Shape).Idx → EReal) : EReal :=
  ∑ k : Fin 512, hidden2 (hidden1 s a W1 W2 b1) W3 b3 k * w (ix2 k (0 : Fin 1))

/-! ## Per trajectory, and over the batch -/

/-- The sum over the 256 steps of trajectory `n` of a per-step quantity. -/
def stepSum (X : (⟨2, ![1024, 256]⟩ : Shape).Idx → EReal) (n : Fin 1024) : EReal :=
  ∑ t : Fin 256, X (ix2 n t)

/-- Summed reward minus summed score of trajectory `n`. -/
def logRatio (S R : (⟨2, ![1024, 256]⟩ : Shape).Idx → EReal) (n : Fin 1024) : EReal :=
  stepSum R n - stepSum S n

/-- The largest such difference over the batch. -/
def peak (S R : (⟨2, ![1024, 256]⟩ : Shape).Idx → EReal) : EReal :=
  ⨆ n : Fin 1024, logRatio S R n

/-- The exponential of trajectory `n`'s difference, shifted by the largest. -/
def shifted (S R : (⟨2, ![1024, 256]⟩ : Shape).Idx → EReal) (n : Fin 1024) : EReal :=
  Ideal.exp (logRatio S R n - peak S R)

/-- The total of the shifted exponentials over the batch. -/
def mass (S R : (⟨2, ![1024, 256]⟩ : Shape).Idx → EReal) : EReal :=
  ∑ n : Fin 1024, shifted S R n

/-- The normalized weight of trajectory `n`. -/
def weight (S R : (⟨2, ![1024, 256]⟩ : Shape).Idx → EReal) (n : Fin 1024) : EReal :=
  Ideal.div (shifted S R n) (mass S R)

end Cert.Policy

end
-- ==== Proof.LibSideBySide.lean ====
/-
  Two matrix products with a common right factor, laid side by side.

  Over the extended reals, entry (a, b) of the product of an r×k matrix A with a k×n matrix B is the sum over the
  contracted coordinate c of A(a, c) · B(c, b). No rounding and no order of summation is left in it: addition on the
  extended reals is commutative and associative, so the sum is a plain finite sum and nothing here asks that an entry be
  finite.

  A kernel forms such a product on the matrix unit, accumulating into a zero block; the host forms it by a
  dot_general with no accumulator. At the ideal values both are that sum (`kernelProduct_apply`, `hostProduct_apply`),
  whatever float formats the factors were narrowed to on the way, a change of format being the identity there.

  `sideBySide A₁ A₂ B` is the r×w array whose columns 0 … n−1 hold A₁·B and whose columns n … 2n−1 hold A₂·B: what
  concatenating the two products along the column axis gives (`concatenate_products`), and equally what writing one product
  into the left half of a block and the other into the right half gives. Row p of either product depends on row p of its left
  factor alone, so a block of rows of the side-by-side array is the side-by-side array of the blocks of rows (`sideBySide_rows`).
-/
import Idealize.ShloMosaic.Lib.StackMember

noncomputable section

namespace SideBySide

open Idealize.ShloMosaic Idealize.ShloMosaic.ValueIdx

variable {r k n w : Nat}

/-- Entry (a, b) of the product A·B of an r×k and a k×n matrix of extended reals. -/
def entry (A : (⟨2, ![r, k]⟩ : Shape).Idx → EReal) (B : (⟨2, ![k, n]⟩ : Shape).Idx → EReal) (a : Fin r) (b : Fin n) : EReal :=
  ∑ c : Fin k, A (ix2 a c) * B (ix2 c b)

/-- The host's product of an r×k by a k×n matrix (rows by columns, one contracted axis), read at (a, b), is that entry. The
    dimension numbers are given as a record equal to the plain one, so that a program's own record fits. -/
theorem hostProduct_apply {φ₁ φ₂ : FTy} (d : DotDims ⟨2, ![r, k]⟩ ⟨2, ![k, n]⟩ ⟨2, ![r, n]⟩) (hd : d = DotDims.plain r k n)
    (prec : Option ContractPrecision) (A : FVec Ideal ⟨2, ![r, k]⟩ φ₁) (B : FVec Ideal ⟨2, ![k, n]⟩ φ₂) (a : Fin r) (b : Fin n) :
    Host.dotGeneral d prec A B (ix2 a b) = entry A B a b := by
  subst hd
  exact StackMember.dotGeneral_plain_apply prec A B a b

/-- The matrix unit's product accumulated into a zero block, read at (a, b), is the same entry: the zero contributes
    nothing to the sum. -/
theorem kernelProduct_apply {φ₁ φ₂ : FTy} (d : DotDims ⟨2, ![r, k]⟩ ⟨2, ![k, n]⟩ ⟨2, ![r, n]⟩) (hd : d = DotDims.plain r k n)
    (prec : Option ContractPrecision) (A : FVec Ideal ⟨2, ![r, k]⟩ φ₁) (B : FVec Ideal ⟨2, ![k, n]⟩ φ₂) (a : Fin r) (b : Fin n) :
    matmul d prec A B (constant (F := Ideal) ⟨2, ![r, n]⟩ .f32 0x00000000#32) (ix2 a b) = entry A B a b := by
  rw [matmul_zero_eq_dotGeneral]
  exact hostProduct_apply d hd prec A B a b

/-- The r×w array with A₁·B in columns 0 … n−1 and A₂·B in columns n … 2n−1 (zero in any column past 2n−1, of which an
    array of width 2n has none). -/
def sideBySide (A₁ A₂ : (⟨2, ![r, k]⟩ : Shape).Idx → EReal) (B : (⟨2, ![k, n]⟩ : Shape).Idx → EReal) :
    (⟨2, ![r, w]⟩ : Shape).Idx → EReal := fun j =>
  if h : (j 1).val < n then entry A₁ B (j 0) ⟨(j 1).val, h⟩
  else if h' : (j 1).val - n < n then entry A₂ B (j 0) ⟨(j 1).val - n, h'⟩ else 0

/-- A column of the left half reads the first product. -/
theorem sideBySide_left (A₁ A₂ : (⟨2, ![r, k]⟩ : Shape).Idx → EReal) (B : (⟨2, ![k, n]⟩ : Shape).Idx → EReal)
    (a : Fin r) (b : Fin w) (hb : b.val < n) :
    sideBySide (w := w) A₁ A₂ B (ix2 a b) = entry A₁ B a ⟨b.val, hb⟩ := by
  show (if h : b.val < n then entry A₁ B a ⟨b.val, h⟩
    else if h' : b.val - n < n then entry A₂ B a ⟨b.val - n, h'⟩ else 0) = _
  rw [dif_pos hb]

/-- A column of the right half reads the second product, n columns to the left. -/
theorem sideBySide_right (A₁ A₂ : (⟨2, ![r, k]⟩ : Shape).Idx → EReal) (B : (⟨2, ![k, n]⟩ : Shape).Idx → EReal)
    (a : Fin r) (b : Fin w) (hb : n ≤ b.val) (hb' : b.val - n < n) :
    sideBySide (w := w) A₁ A₂ B (ix2 a b) = entry A₂ B a ⟨b.val - n, hb'⟩ := by
  show (if h : b.val < n then entry A₁ B a ⟨b.val, h⟩
    else if h' : b.val - n < n then entry A₂ B a ⟨b.val - n, h'⟩ else 0) = _
  rw [dif_neg (Nat.not_lt.2 hb), dif_pos hb']

/-- A column past both halves reads zero. -/
theorem sideBySide_beyond (A₁ A₂ : (⟨2, ![r, k]⟩ : Shape).Idx → EReal) (B : (⟨2, ![k, n]⟩ : Shape).Idx → EReal)
    (a : Fin r) (b : Fin w) (hb : ¬ b.val < n) (hb' : ¬ b.val - n < n) :
    sideBySide (w := w) A₁ A₂ B (ix2 a b) = 0 := by
  show (if h : b.val < n then entry A₁ B a ⟨b.val, h⟩
    else if h' : b.val - n < n then entry A₂ B a ⟨b.val - n, h'⟩ else 0) = _
  rw [dif_neg hb, dif_neg hb']

/-- A block of rows of the side-by-side array is the side-by-side array of that block of rows of each left factor: row p
    of a product depends on row p of its left factor only. Here a₁ and a₂ are rows off … off + r − 1 of A₁ and A₂. -/
theorem sideBySide_rows {R : Nat} (A₁ A₂ : (⟨2, ![R, k]⟩ : Shape).Idx → EReal) (B : (⟨2, ![k, n]⟩ : Shape).Idx → EReal)
    (a₁ a₂ : (⟨2, ![r, k]⟩ : Shape).Idx → EReal) (off : Nat) (hoff : off + r ≤ R)
    (h₁ : ∀ (p : Fin r) (c : Fin k), a₁ (ix2 p c) = A₁ (ix2 ⟨off + p.val, by have := p.isLt; omega⟩ c))
    (h₂ : ∀ (p : Fin r) (c : Fin k), a₂ (ix2 p c) = A₂ (ix2 ⟨off + p.val, by have := p.isLt; omega⟩ c))
    (p : Fin r) (b : Fin w) :
    sideBySide (w := w) a₁ a₂ B (ix2 p b)
      = sideBySide (w := w) A₁ A₂ B (ix2 ⟨off + p.val, by have := p.isLt; omega⟩ b) := by
  have e₁ : ∀ q : Fin n, entry a₁ B p q = entry A₁ B ⟨off + p.val, by have := p.isLt; omega⟩ q := fun q => by
    unfold entry; exact Finset.sum_congr rfl fun c _ => by rw [h₁]
  have e₂ : ∀ q : Fin n, entry a₂ B p q = entry A₂ B ⟨off + p.val, by have := p.isLt; omega⟩ q := fun q => by
    unfold entry; exact Finset.sum_congr rfl fun c _ => by rw [h₂]
  by_cases hb : b.val < n
  · rw [sideBySide_left _ _ _ _ _ hb, sideBySide_left _ _ _ _ _ hb, e₁]
  · by_cases hb' : b.val - n < n
    · rw [sideBySide_right _ _ _ _ _ (Nat.not_lt.1 hb) hb', sideBySide_right _ _ _ _ _ (Nat.not_lt.1 hb) hb', e₂]
    · rw [sideBySide_beyond _ _ _ _ _ hb hb', sideBySide_beyond _ _ _ _ _ hb hb']

/-- The host's two products concatenated along the column axis are the two products side by side. -/
theorem concatenate_products {φ₁ φ₂ : FTy} (d : DotDims ⟨2, ![r, k]⟩ ⟨2, ![k, n]⟩ ⟨2, ![r, n]⟩) (hd : d = DotDims.plain r k n)
    (prec : Option ContractPrecision) (A₁ A₂ : FVec Ideal ⟨2, ![r, k]⟩ φ₁) (B : FVec Ideal ⟨2, ![k, n]⟩ φ₂)
    (hw : w = n + n)
    (h : Shape.Concatenates [(⟨2, ![r, n]⟩ : Shape), (⟨2, ![r, n]⟩ : Shape)] (⟨2, ![r, w]⟩ : Shape) 1) :
    concatenate (⟨2, ![r, w]⟩ : Shape) 1
        [⟨(⟨2, ![r, n]⟩ : Shape), Host.dotGeneral d prec A₁ B⟩, ⟨(⟨2, ![r, n]⟩ : Shape), Host.dotGeneral d prec A₂ B⟩] h
      = sideBySide (w := w) A₁ A₂ B := by
  funext j
  obtain ⟨a, b, rfl⟩ : ∃ (a : Fin r) (b : Fin w), j = ix2 a b := ⟨j 0, j 1, eq_ix2 j⟩
  by_cases hb : b.val < n
  · rw [sideBySide_left A₁ A₂ B a b hb, ← hostProduct_apply d hd prec A₁ B a ⟨b.val, hb⟩]
    exact concatenate_pair_apply_left 1 _ _ h (ix2 a b) rfl (ix2 a ⟨b.val, hb⟩)
      (fun q => by match q with | ⟨0, _⟩ => rfl | ⟨1, _⟩ => rfl)
  · have hb1 : n ≤ b.val := Nat.not_lt.1 hb
    have hb2 : b.val - n < n := by have := b.isLt; omega
    rw [sideBySide_right A₁ A₂ B a b hb1 hb2, ← hostProduct_apply d hd prec A₂ B a ⟨b.val - n, hb2⟩]
    exact concatenate_pair_apply_right 1 _ _ h (ix2 a b) rfl rfl (ix2 a ⟨b.val - n, hb2⟩)
      (fun q hq => by
        match q with
        | ⟨0, _⟩ => rfl
        | ⟨1, _⟩ => exact absurd rfl hq)
      (by show (b.val - n) + n = b.val; omega)

end SideBySide

end
-- ==== Proof.BlockScore.lean ====
/-
  The first kernel on one block of 2048 (state, action) pairs, read entry by entry.

  The block's arithmetic is three matrix products, each accumulated into a zero block, two bias rows repeated down the
  2048 rows, and two layers of tanh. Over the extended reals a change of float format is the identity and a product into
  a zero block is the plain sum over the contracted coordinate, so row p of every intermediate array depends on row p of
  the block's states and actions alone: entry (p, j) after the first tanh is first-layer unit j of pair p, entry (p, k)
  after the second tanh is second-layer unit k of pair p, and the stored column holds, in row p, that pair's score.
-/
import proofs.«173706_g71854802862086_cont_9to1_m_883_1_alg».proof.Proof.Gen.KernelIdeal.Skeleton
import proofs.«173706_g71854802862086_cont_9to1_m_883_1_alg».proof.Proof.Spec
import proofs.«173706_g71854802862086_cont_9to1_m_883_1_alg».proof.Proof.LibSideBySide
import Idealize.ShloMosaic.PureOps.Ideal.Laws
import Idealize.ShloMosaic.Lib.Pipeline.Value
import Idealize.ShloMosaic.Lib.ValueLayout

set_option maxRecDepth 16384

noncomputable section

namespace Cert.Policy.Block

open Cert.KernelIdeal Cert.KernelIdeal.Gen Idealize.ShloMosaic Idealize.ShloMosaic.ValueIdx

/-! ## Pointwise tanh at an index -/

/-- A tanh of an array, read at an index, is the tanh of the entry there. -/
theorem tanh_apply {s : Shape} {φ : FTy} (a : FVec Ideal s φ) (i : s.Idx) : tanh a i = Ideal.tanh (a i) := rfl

/-! ## The four products, each into a zero block -/

/-- States (2048 × 128) by the first weight matrix (128 × 512). -/
theorem stateProduct_apply (A : FVec Ideal S2048x128 .bf16) (B : FVec Ideal S128x512 .bf16) (p : Fin 2048) (j : Fin 512) :
    matmul dot_S2048x128_S128x512_S2048x512_1_0_0_1_n_n none A B (constant (F := Ideal) S2048x512 .f32 0x00000000#32) (ix2 p j)
      = ∑ i : Fin 128, A (ix2 p i) * B (ix2 i j) :=
  SideBySide.kernelProduct_apply _ rfl none A B p j

/-- Actions (2048 × 32) by the second weight matrix (32 × 512). -/
theorem actionProduct_apply (A : FVec Ideal S2048x32 .bf16) (B : FVec Ideal S32x512 .bf16) (p : Fin 2048) (j : Fin 512) :
    matmul dot_S2048x32_S32x512_S2048x512_1_0_0_1_n_n none A B (constant (F := Ideal) S2048x512 .f32 0x00000000#32) (ix2 p j)
      = ∑ i : Fin 32, A (ix2 p i) * B (ix2 i j) :=
  SideBySide.kernelProduct_apply _ rfl none A B p j

/-- First-layer values (2048 × 512) by the third weight matrix (512 × 512). -/
theorem hiddenProduct_apply (A : FVec Ideal S2048x512 .bf16) (B : FVec Ideal S512x512 .bf16) (p : Fin 2048) (k : Fin 512) :
    matmul dot_S2048x512_S512x512_S2048x512_1_0_0_1_n_n none A B (constant (F := Ideal) S2048x512 .f32 0x00000000#32) (ix2 p k)
      = ∑ j : Fin 512, A (ix2 p j) * B (ix2 j k) :=
  SideBySide.kernelProduct_apply _ rfl none A B p k

/-- Second-layer values (2048 × 512) by the output column (512 × 1). -/
theorem outputProduct_apply (A : FVec Ideal S2048x512 .bf16) (B : FVec Ideal S512x1 .bf16) (p : Fin 2048) (u : Fin 1) :
    matmul dot_S2048x512_S512x1_S2048x1_1_0_0_1_n_n none A B (constant (F := Ideal) S2048x1 .f32 0x00000000#32) (ix2 p u)
      = ∑ k : Fin 512, A (ix2 p k) * B (ix2 k u) :=
  SideBySide.kernelProduct_apply _ rfl none A B p u

/-! ## The two layers, row by row -/

/-- Entry (p, j) after the first tanh is first-layer unit j of the pair in row p: the two products' entries are the two
    sums over that pair's state and action rows, and the bias row repeated down the block contributes its entry j. -/
theorem firstLayer_apply (x0 : Vec Ideal S2048x128 .f32) (x1 : Vec Ideal S2048x32 .f32) (x2 : Vec Ideal S128x512 .f32)
    (x3 : Vec Ideal S32x512 .f32) (x4 : Vec Ideal S1x512 .f32) (p : Fin 2048) (j : Fin 512) :
    tanh (addf
        (addf
          (matmul dot_S2048x128_S128x512_S2048x512_1_0_0_1_n_n none (truncf .bf16 x0 bitsLt_bf16_f32)
            (truncf .bf16 x2 bitsLt_bf16_f32) (constant (F := Ideal) S2048x512 .f32 0x00000000#32))
          (matmul dot_S2048x32_S32x512_S2048x512_1_0_0_1_n_n none (truncf .bf16 x1 bitsLt_bf16_f32)
            (truncf .bf16 x3 bitsLt_bf16_f32) (constant (F := Ideal) S2048x512 .f32 0x00000000#32)))
        (broadcastTo S2048x512 x4 broadcasts_S1x512_S2048x512)) (ix2 p j)
      = Cert.Policy.hidden1 (fun i => x0 (ix2 p i)) (fun i => x1 (ix2 p i)) x2 x3 (fun j => x4 (ix2 (0 : Fin 1) j)) j := by
  rw [tanh_apply, addf_apply, addf_apply, stateProduct_apply, actionProduct_apply, broadcastTo_1b_ab_apply]
  rfl

/-- Entry (p, k) after the second tanh is second-layer unit k computed from row p of the first layer's values. -/
theorem secondLayer_apply (h1 : FVec Ideal S2048x512 .f32) (x5 : Vec Ideal S512x512 .f32) (x6 : Vec Ideal S1x512 .f32)
    (p : Fin 2048) (k : Fin 512) :
    tanh (addf
        (matmul dot_S2048x512_S512x512_S2048x512_1_0_0_1_n_n none (truncf .bf16 h1 bitsLt_bf16_f32)
          (truncf .bf16 x5 bitsLt_bf16_f32) (constant (F := Ideal) S2048x512 .f32 0x00000000#32))
        (broadcastTo S2048x512 x6 broadcasts_S1x512_S2048x512)) (ix2 p k)
      = Cert.Policy.hidden2 (fun j => h1 (ix2 p j)) x5 (fun j => x6 (ix2 (0 : Fin 1) j)) k := by
  rw [tanh_apply, addf_apply, hiddenProduct_apply, broadcastTo_1b_ab_apply]
  rfl

/-! ## The stored column -/

/-- Row p of the column the first kernel stores for a block is the score of the pair in row p of the block. -/
theorem k0_pay1_apply (x0 : Vec Ideal S2048x128 .f32) (x1 : Vec Ideal S2048x32 .f32) (x2 : Vec Ideal S128x512 .f32)
    (x3 : Vec Ideal S32x512 .f32) (x5 : Vec Ideal S512x512 .f32) (x7 : Vec Ideal S512x1 .f32) (x4 : Vec Ideal S1x512 .f32)
    (x6 : Vec Ideal S1x512 .f32) (p : Fin 2048) (u : Fin 1) :
    k0_pay1 (F := Ideal) x0 x1 x2 x3 x5 x7 x4 x6 (ix2 p u)
      = Cert.Policy.pairScore (fun i => x0 (ix2 p i)) (fun i => x1 (ix2 p i)) x2 x3 (fun j => x4 (ix2 (0 : Fin 1) j)) x5
          (fun j => x6 (ix2 (0 : Fin 1) j)) x7 := by
  obtain rfl : u = 0 := Subsingleton.elim _ _
  unfold k0_pay1
  simp only [shapeCast_self]
  rw [outputProduct_apply]
  unfold Cert.Policy.pairScore
  refine Finset.sum_congr rfl fun k _ => ?_
  rw [truncf_apply, truncf_apply, secondLayer_apply]
  congr 2
  exact funext fun j => firstLayer_apply x0 x1 x2 x3 x4 p j

end Cert.Policy.Block

end
-- ==== Proof.ScoreRegion.lean ====
/-
  The scoring region: 128 grid points, each scoring one block of 2048 consecutive (state, action) pairs.

  Point t stages rows 2048·t … 2048·t + 2047 of the flattened states and actions, the whole of every weight array and
  bias row, and writes back rows 2048·t … 2048·t + 2047 of the score column. Row p of what it writes is the score of the
  pair in row 2048·t + p of the arrays (a pair's score depends on that pair's own rows and on the weights only), so each
  written block is the restriction to its rows of ONE whole-column function of the arrays as the region finds them:
  `scores`. The 128 blocks tile the 262144 rows (row r lies in block r / 2048), so after the last point the column
  holds `scores` everywhere.
-/
import proofs.«173706_g71854802862086_cont_9to1_m_883_1_alg».proof.Proof.Gen.KernelIdeal.Frame
import proofs.«173706_g71854802862086_cont_9to1_m_883_1_alg».proof.Proof.Spec
import proofs.«173706_g71854802862086_cont_9to1_m_883_1_alg».proof.Proof.BlockScore
import Idealize.ShloMosaic.Lib.Pipeline.Value
import Idealize.ShloMosaic.Lib.ValueIdx

set_option maxRecDepth 16384

noncomputable section

namespace Cert.Policy.ScoreRegion

open Cert.KernelIdeal Cert.KernelIdeal.Gen Cert.Policy
open Idealize.ShloMosaic Idealize.ShloMosaic.TcCoe Idealize.ShloMosaic.ValueIdx Idealize.SL.Sem
open Idealize.ShloMosaic.Pipeline (Dat Cfg Window)

theorem origin2 : (![0, 0] : Fin 2 → Nat) = fun _ => 0 := funext fun a => by fin_cases a <;> rfl

/-- One block's stored column at an index, with the rows it reads NAMED: if row `y 0` of the block's states and actions
    are `s` and `a`, the bias rows are `b1` and `b3` and the weight arrays are as named, the entry is that pair's score. -/
theorem block_entry (x0 : Vec Ideal S2048x128 .f32) (x1 : Vec Ideal S2048x32 .f32) (x2 : Vec Ideal S128x512 .f32)
    (x3 : Vec Ideal S32x512 .f32) (x5 : Vec Ideal S512x512 .f32) (x7 : Vec Ideal S512x1 .f32) (x4 : Vec Ideal S1x512 .f32)
    (x6 : Vec Ideal S1x512 .f32) (y : S2048x1.Idx) (s : Fin 128 → EReal) (a : Fin 32 → EReal) (b1 b3 : Fin 512 → EReal)
    (W1 : S128x512.Idx → EReal) (W2 : S32x512.Idx → EReal) (W3 : S512x512.Idx → EReal) (w : S512x1.Idx → EReal)
    (hs : ∀ k : Fin 128, x0 (ix2 (y 0) k) = s k) (ha : ∀ k : Fin 32, x1 (ix2 (y 0) k) = a k)
    (hb1 : ∀ j : Fin 512, x4 (ix2 (0 : Fin 1) j) = b1 j) (hb3 : ∀ j : Fin 512, x6 (ix2 (0 : Fin 1) j) = b3 j)
    (h2 : x2 = W1) (h3 : x3 = W2) (h5 : x5 = W3) (h7 : x7 = w) :
    k0_pay1 (F := Ideal) x0 x1 x2 x3 x5 x7 x4 x6 y = pairScore s a W1 W2 b1 W3 b3 w := by
  subst h2 h3 h5 h7
  obtain ⟨p, u, rfl⟩ : ∃ (p : Fin 2048) (u : Fin 1), y = ix2 p u := ⟨y 0, y 1, eq_ix2 y⟩
  rw [Block.k0_pay1_apply, show (fun i => x0 (ix2 p i)) = s from funext hs, show (fun i => x1 (ix2 p i)) = a from funext ha,
    show (fun j => x4 (ix2 (0 : Fin 1) j)) = b1 from funext hb1, show (fun j => x6 (ix2 (0 : Fin 1) j)) = b3 from funext hb3]

-- the buffer contents when the region is entered: a parameter, as in the generated frame
variable (V : (c : Dev nD) → (b : Ref sig .tc) → Buf (Elt Ideal) ((c : Thread nD τ).loc b))

/-- The row of an index of the score column. -/
abbrev rowOf (i : S262144x1.Idx) : Fin 262144 := ⟨(i 0).val, (i 0).isLt⟩

/-- The score column as ONE function of the arrays the region finds: entry (r, 0) is the score of the pair whose states
    and actions are row r of the flattened arrays. -/
def scores (c : Dev nD) : S262144x1.Idx → EReal := fun i =>
  pairScore (fun k => V c main_v0 (ix2 (rowOf i) k)) (fun k => V c main_v1 (ix2 (rowOf i) k)) (V c main_arg3) (V c main_arg4)
    (fun j => V c main_v2 (ix2 (0 : Fin 1) j)) (V c main_arg6) (fun j => V c main_v3 (ix2 (0 : Fin 1) j)) (V c main_arg8)

/-- The printed index maps, decided once over the 128 points: the states', the actions' and the scores' blocks move with
    the point along the rows; every other window stays on its array's one block. -/
theorem index_facts : ∀ t : Fin cfg0.N,
    win0_8.index t (0 : Fin 2) = t.val ∧ win0_8.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-! ## A window that stays on its array's one block stages the whole array -/

theorem whole_W1 (c : Dev nD) (t : Fin cfg0.N) : iblk0 V c 2 t = V c main_arg3 := by
  obtain ⟨-, -, -, -, -, -, e0, e1, -⟩ := index_facts t
  funext y
  show V c main_arg3 (((cfg0.win 2).blk t).view.emb y) = V c main_arg3 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 512 + 1 * (y 1).val = (y 1).val; omega

theorem whole_W2 (c : Dev nD) (t : Fin cfg0.N) : iblk0 V c 3 t = V c main_arg4 := by
  obtain ⟨-, -, -, -, -, -, -, -, e0, e1, -⟩ := index_facts t
  funext y
  show V c main_arg4 (((cfg0.win 3).blk t).view.emb y) = V c main_arg4 y
  refine congrArg _ (funext fun a => Fin.ext ?_)
  match a with
  | ⟨0, _⟩ => show win0_3.index t (0 : Fin 2) * 32 + 1 * (y 0).val = (y 0).val; omega
  | ⟨1, _⟩ => show win0_3.index t (1 : Fin 2) * 512 + 1 * (y 1).val = (y 1).val; omega

theorem whole_b1 (c : Dev nD) (t : Fin cfg0.N) : iblk0 V c 4 t = V c main_v2 := by
  obtain ⟨-, -, -, -, -, -, -, -, -, -, e0, e1, -⟩ := index_facts t
  funext y
  show V c main_v2 (((cfg0.win 4).blk t).view.emb y) = V c main_v2 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 512 + 1 * (y 1).val = (y 1).val; omega

theorem whole_W3 (c : Dev nD) (t : Fin cfg0.N) : iblk0 V c 5 t = V c main_arg6 := by
  obtain ⟨-, -, -, -, -, -, -, -, -, -, -, -, e0, e1, -⟩ := index_facts t
  funext y
  show V c main_arg6 (((cfg0.win 5).blk t).view.emb y) = V c main_arg6 y
  refine congrArg _ (funext fun a => Fin.ext ?_)
  match a with
  | ⟨0, _⟩ => show win0_5.index t (0 : Fin 2) * 512 + 1 * (y 0).val = (y 0).val; omega
  | ⟨1, _⟩ => show win0_5.index t (1 : Fin 2) * 512 + 1 * (y 1).val = (y 1).val; omega

theorem whole_b3 (c : Dev nD) (t : Fin cfg0.N) : iblk0 V c 6 t = V c main_v3 := by
  obtain ⟨-, -, -, -, -, -, -, -, -, -, -, -, -, -, e0, e1, -⟩ := index_facts t
  funext y
  show V c main_v3 (((cfg0.win 6).blk t).view.emb y) = V c main_v3 y
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 512 + 1 * (y 1).val = (y 1).val; omega

theorem whole_w (c : Dev nD) (t : Fin cfg0.N) : iblk0 V c 7 t = V c main_arg8 := by
  obtain ⟨-, -, -, -, -, -, -, -, -, -, -, -, -, -, -, -, e0, e1⟩ := index_facts t
  funext y
  show V c main_arg8 (((cfg0.win 7).blk t).view.emb y) = V c main_arg8 y
  refine congrArg _ (funext fun a => Fin.ext ?_)
  match a with
  | ⟨0, _⟩ => show win0_7.index t (0 : Fin 2) * 512 + 1 * (y 0).val = (y 0).val; omega
  | ⟨1, _⟩ => show win0_7.index t (1 : Fin 2) * 1 + 1 * (y 1).val = (y 1).val; omega

/-! ## What a point writes back -/

/-- Point `t` writes back block `t` of `scores`: row p of the block it stages is row 2048·t + p of the arrays. -/
theorem flushed_eq (c : Dev nD) (t : Fin cfg0.N) :
    (dat0 V c).flushed 8 t = ((cfg0.win 8).blk t).view.read (Elt Ideal) (scores V c) := by
  show (cfg0.win 8).cut (grid0.coords t) ((dat0 V c).after 8 t) = _
  rw [after0_8]
  unfold out0_8
  rw [View.canon_unit_zero origin2]
  simp only [View.ld_unit_zero (S := S2048x128) origin2, View.ld_unit_zero (S := S2048x32) origin2,
    View.ld_unit_zero (S := S128x512) origin2, View.ld_unit_zero (S := S32x512) origin2,
    View.ld_unit_zero (S := S512x512) origin2, View.ld_unit_zero (S := S512x1) origin2,
    View.ld_unit_zero (S := S1x512) origin2]
  obtain ⟨e80, e81, e00, e01, e10, e11, -⟩ := index_facts t
  funext y
  show k0_pay1 (iblk0 V c 0 t) (iblk0 V c 1 t) (iblk0 V c 2 t) (iblk0 V c 3 t) (iblk0 V c 5 t) (iblk0 V c 7 t)
      (iblk0 V c 4 t) (iblk0 V c 6 t) y = scores V c (((cfg0.win 8).blk t).view.emb y)
  unfold scores
  refine block_entry (iblk0 V c 0 t) (iblk0 V c 1 t) (iblk0 V c 2 t) (iblk0 V c 3 t) (iblk0 V c 5 t) (iblk0 V c 7 t)
    (iblk0 V c 4 t) (iblk0 V c 6 t) y
    (fun k => V c main_v0 (ix2 (rowOf (((cfg0.win 8).blk t).view.emb y)) k))
    (fun k => V c main_v1 (ix2 (rowOf (((cfg0.win 8).blk t).view.emb y)) k))
    (fun j => V c main_v2 (ix2 (0 : Fin 1) j)) (fun j => V c main_v3 (ix2 (0 : Fin 1) j))
    (V c main_arg3) (V c main_arg4) (V c main_arg6) (V c main_arg8) ?_ ?_ ?_ ?_
    (whole_W1 V c t) (whole_W2 V c t) (whole_W3 V c t) (whole_w V c t)
  · intro k
    show V c main_v0 (((cfg0.win 0).blk t).view.emb (ix2 (y 0) k)) = V c main_v0 (ix2 (rowOf (((cfg0.win 8).blk t).view.emb y)) k)
    refine congrArg _ (funext fun a => Fin.ext ?_)
    match a with
    | ⟨0, _⟩ => show win0_0.index t (0 : Fin 2) * 2048 + 1 * (y 0).val = win0_8.index t (0 : Fin 2) * 2048 + 1 * (y 0).val; omega
    | ⟨1, _⟩ => show win0_0.index t (1 : Fin 2) * 128 + 1 * k.val = k.val; omega
  · intro k
    show V c main_v1 (((cfg0.win 1).blk t).view.emb (ix2 (y 0) k)) = V c main_v1 (ix2 (rowOf (((cfg0.win 8).blk t).view.emb y)) k)
    refine congrArg _ (funext fun a => Fin.ext ?_)
    match a with
    | ⟨0, _⟩ => show win0_1.index t (0 : Fin 2) * 2048 + 1 * (y 0).val = win0_8.index t (0 : Fin 2) * 2048 + 1 * (y 0).val; omega
    | ⟨1, _⟩ => show win0_1.index t (1 : Fin 2) * 32 + 1 * k.val = k.val; omega
  · intro j; exact congrFun (whole_b1 V c t) (ix2 (0 : Fin 1) j)
  · intro j; exact congrFun (whole_b3 V c t) (ix2 (0 : Fin 1) j)

/-! ## The blocks tile the column -/

/-- An index of the column is in point `t`'s block iff its row lies in rows 2048·t … 2048·t + 2047. -/
theorem mem_block (t : Fin cfg0.N) (i : S262144x1.Idx) :
    i ∈ ((cfg0.win 8).blk t).view.set ↔ ∀ a : Fin 2, win0_8.index t a * S2048x1.size a ≤ (i a).val ∧ (i a).val < win0_8.index t a * S2048x1.size a + S2048x1.size a := by
  show i ∈ ((View.whole main_v4).slice (win0_8.rect t)).set ↔ _
  rw [View.set_slice_whole, Rect.mem_set_unit]
  exact Iff.rfl

/-- Row r lies in the block of point r / 2048. -/
theorem covered (i : S262144x1.Idx) :
    ∃ t : Fin cfg0.N, (cfg0.win 8).flush t = true ∧ i ∈ ((cfg0.win 8).blk t).view.set := by
  have h0 : (i 0).val < 262144 := (i 0).isLt
  have h1 : (i 1).val < 1 := (i 1).isLt
  obtain ⟨t, ht⟩ : ∃ t : Fin cfg0.N, t.val = (i 0).val / 2048 :=
    ⟨⟨(i 0).val / 2048, by show (i 0).val / 2048 < 128; omega⟩, rfl⟩
  obtain ⟨e0, e1, -⟩ := index_facts t
  refine ⟨t, flush0_8 t, ?_⟩
  rw [mem_block]
  intro a
  match a with
  | ⟨0, _⟩ => show win0_8.index t (0 : Fin 2) * 2048 ≤ (i 0).val ∧ (i 0).val < win0_8.index t (0 : Fin 2) * 2048 + 2048; omega
  | ⟨1, _⟩ => show win0_8.index t (1 : Fin 2) * 1 ≤ (i 1).val ∧ (i 1).val < win0_8.index t (1 : Fin 2) * 1 + 1; omega

/-- After the last point the score column holds `scores` of the arrays the region found. -/
theorem column_after (c : Dev nD) : (dat0 V c).arrAt 8 cfg0.N = scores V c :=
  (dat0 V c).arrAt_eq_of_cover 8 _ (fun t _ => flushed_eq V c t) covered

end Cert.Policy.ScoreRegion

end
-- ==== Proof.LibExtremum.lean ====
/-
  Extremes through reductions, on the extended reals.

  A minimum-reduction over some axes of an array, started from +∞, leaves at each reduced index the
  minimum of the entries that drop to it. Taking the infimum of THAT over every reduced index gives
  the infimum of every entry of the source: each entry drops to exactly one reduced index. A shape
  cast only renames indices along a bijection, so it keeps the infimum of all entries as well. A chain
  of reductions and shape casts that ends in an array with a single index therefore holds, at that
  index, the infimum of every entry of the array the chain began with — whatever the order in which
  the axes were reduced. The same holds with maximum, −∞ and supremum.

  For a reduction over ONE axis by the host the reduced entry is read directly as the infimum (or
  supremum) over that axis's coordinates.
-/
import Idealize.ShloMosaic.PureOps.Ideal.Laws

noncomputable section

namespace Cert.Extremum

open Idealize.ShloMosaic

variable {φ : FTy}

/-! ## Folds of `min` and `max` as infimum and supremum -/

/-- Folding `min` from +∞ over a finite set of indices gives the infimum over the set. -/
theorem fold_min_top {ι : Type} (S : Finset ι) (f : ι → EReal) : S.fold min (⊤ : EReal) f = ⨅ k ∈ S, f k :=
  eq_of_forall_le_iff fun z => by
    rw [Finset.le_fold_min]
    simp only [le_top, true_and, le_iInf_iff]

/-- Folding `max` from −∞ over a finite set of indices gives the supremum over the set. -/
theorem fold_max_bot {ι : Type} (S : Finset ι) (f : ι → EReal) : S.fold max (⊥ : EReal) f = ⨆ k ∈ S, f k :=
  eq_of_forall_ge_iff fun z => by
    rw [Finset.fold_max_le]
    simp only [bot_le, true_and, iSup_le_iff]

/-- Over every index of a finite type: the fold of `min` from +∞ is the infimum. -/
theorem fold_min_top_univ {ι : Type} [Fintype ι] (f : ι → EReal) : Finset.univ.fold min (⊤ : EReal) f = ⨅ k, f k := by
  rw [fold_min_top]; simp only [Finset.mem_univ, iInf_pos]

/-- Over every index of a finite type: the fold of `max` from −∞ is the supremum. -/
theorem fold_max_bot_univ {ι : Type} [Fintype ι] (f : ι → EReal) : Finset.univ.fold max (⊥ : EReal) f = ⨆ k, f k := by
  rw [fold_max_bot]; simp only [Finset.mem_univ, iSup_pos]

/-! ## An index type with one element -/

/-- Over an index type with at most one element the infimum is the value at any index. -/
theorem iInf_of_subsingleton {ι : Type} [Subsingleton ι] (g : ι → EReal) (j : ι) : (⨅ j', g j') = g j :=
  le_antisymm (iInf_le _ j) (le_iInf fun j' => by rw [Subsingleton.elim j' j])

/-- Over an index type with at most one element the supremum is the value at any index. -/
theorem iSup_of_subsingleton {ι : Type} [Subsingleton ι] (g : ι → EReal) (j : ι) : (⨆ j', g j') = g j :=
  le_antisymm (iSup_le fun j' => by rw [Subsingleton.elim j' j]) (le_iSup _ j)

/-! ## A shape cast keeps the extremes of all entries -/

/-- A shape cast reads its operand along a bijection of indices: the infimum of all entries is unchanged. -/
theorem iInf_shapeCast {s t : Shape} (v : s.Idx → EReal) (h : s.ShapeCasts t) :
    (⨅ j : t.Idx, shapeCast t v h j) = ⨅ i : s.Idx, v i :=
  (Shape.reshapeEquiv h).iInf_comp (g := v)

/-- And so is the supremum. -/
theorem iSup_shapeCast {s t : Shape} (v : s.Idx → EReal) (h : s.ShapeCasts t) :
    (⨆ j : t.Idx, shapeCast t v h j) = ⨆ i : s.Idx, v i :=
  (Shape.reshapeEquiv h).iSup_comp (g := v)

/-! ## A reduction, then the extreme over what is left -/

/-- A minimum-reduction from +∞ over any axes, followed by the infimum over the reduced indices, is the infimum of
    every entry of the source: the entry at `i` is among those folded at the index `i` drops to, and every entry folded
    at a reduced index is an entry of the source. -/
theorem iInf_multiReduction_min {s t : Shape} {axes : List (Fin s.rank)} (src : FVec Ideal s φ) (acc : BitVec φ.bits)
    (h : s.Reduces axes t) (hφ : FKind.Formats φ) (hacc : acc = FKind.minimumf.neutral φ hφ)
    (htop : (FloatOps.ofBits φ acc : Ideal φ) = (⊤ : EReal)) :
    (⨅ j : t.Idx, (multiReduction .minimumf axes t src acc h hφ hacc j : EReal)) = ⨅ i : s.Idx, (src i : EReal) := by
  have hf : ∀ j : t.Idx, (multiReduction .minimumf axes t src acc h hφ hacc j : EReal)
      = (Finset.univ.filter fun i => h.drop i = j).fold min (⊤ : EReal) src := fun j => by
    rw [multiReduction_minimumf_eq_fold, htop]; rfl
  apply le_antisymm
  · refine le_iInf fun i => (iInf_le _ (h.drop i)).trans ?_
    rw [hf]
    exact (Finset.fold_min_le _).2 (Or.inr ⟨i, Finset.mem_filter.2 ⟨Finset.mem_univ _, rfl⟩, le_rfl⟩)
  · refine le_iInf fun j => ?_
    rw [hf, Finset.le_fold_min]
    exact ⟨le_top, fun i _ => iInf_le _ i⟩

/-- A maximum-reduction from −∞ over any axes, followed by the supremum over the reduced indices, is the supremum of
    every entry of the source. -/
theorem iSup_multiReduction_max {s t : Shape} {axes : List (Fin s.rank)} (src : FVec Ideal s φ) (acc : BitVec φ.bits)
    (h : s.Reduces axes t) (hφ : FKind.Formats φ) (hacc : acc = FKind.maximumf.neutral φ hφ)
    (hbot : (FloatOps.ofBits φ acc : Ideal φ) = (⊥ : EReal)) :
    (⨆ j : t.Idx, (multiReduction .maximumf axes t src acc h hφ hacc j : EReal)) = ⨆ i : s.Idx, (src i : EReal) := by
  have hf : ∀ j : t.Idx, (multiReduction .maximumf axes t src acc h hφ hacc j : EReal)
      = (Finset.univ.filter fun i => h.drop i = j).fold max (⊥ : EReal) src := fun j => by
    rw [multiReduction_maximumf_eq_fold, hbot]; rfl
  apply le_antisymm
  · refine iSup_le fun j => ?_
    rw [hf, Finset.fold_max_le]
    exact ⟨bot_le, fun i _ => le_iSup _ i⟩
  · refine iSup_le fun i => le_trans ?_ (le_iSup _ (h.drop i))
    rw [hf]
    exact (Finset.le_fold_max _).2 (Or.inr ⟨i, Finset.mem_filter.2 ⟨Finset.mem_univ _, rfl⟩, le_rfl⟩)

/-! ## The host's reduction over one axis -/

/-- The host's reduce with a minimum body over ONE axis, from an initial value that is +∞: at a reduced index, the
    infimum of the operand over that axis's coordinates (the reduced index with the coordinate put back). -/
theorem hostReduce_min_single {s t u : Shape} {a : Fin s.rank} (x : s.Idx → Ideal φ) (init : u.Idx → Ideal φ)
    (h' : s.ReducesTo [a] t) (h : s.Reduces [a] t) (hu : 0 < u.numel) (hinit : init (Shape.Idx.first hu) = (⊤ : EReal))
    (j : t.Idx) :
    (Host.reduce (FloatOps.minimumf (F := Ideal) (φ := φ)) x init h' hu j : EReal) = ⨅ k : Fin (s.size a), (x (h.lift j k) : EReal) := by
  rw [Host.reduce_eq_fold_single (FloatOps.minimumf (F := Ideal) (φ := φ)) x init h' h hu j, hinit]
  exact fold_min_top_univ (fun k => x (h.lift j k))

/-- The same with a maximum body from −∞: the supremum over that axis's coordinates. -/
theorem hostReduce_max_single {s t u : Shape} {a : Fin s.rank} (x : s.Idx → Ideal φ) (init : u.Idx → Ideal φ)
    (h' : s.ReducesTo [a] t) (h : s.Reduces [a] t) (hu : 0 < u.numel) (hinit : init (Shape.Idx.first hu) = (⊥ : EReal))
    (j : t.Idx) :
    (Host.reduce (FloatOps.maximumf (F := Ideal) (φ := φ)) x init h' hu j : EReal) = ⨆ k : Fin (s.size a), (x (h.lift j k) : EReal) := by
  rw [Host.reduce_eq_fold_single (FloatOps.maximumf (F := Ideal) (φ := φ)) x init h' h hu j, hinit]
  exact fold_max_bot_univ (fun k => x (h.lift j k))

/-! ## The two infinite words -/

/-- The f32 word of +∞ is the top of the extended reals. -/
theorem ofBits_posInf_f32 : (FloatOps.ofBits (F := Ideal) .f32 0x7F800000#32 : EReal) = ⊤ := by
  show Ideal.ofBits .f32 0x7F800000#32 = ⊤
  simp [Ideal.ofBits, Ideal.ieee]

/-- The f32 word of −∞ is the bottom of the extended reals. -/
theorem ofBits_negInf_f32 : (FloatOps.ofBits (F := Ideal) .f32 0xFF800000#32 : EReal) = ⊥ := by
  show Ideal.ofBits .f32 0xFF800000#32 = ⊥
  simp [Ideal.ofBits, Ideal.ieee]

end Cert.Extremum

end
-- ==== Proof.LibKeepdims.lean ====
/-
  Two layout operations read at an index given by coordinates, for the column a `keepdims` row reduction leaves:
  a vector `[a]` cast to the column `[a, 1]`, and a column `[a, 1]` broadcast along its unit axis to `[a, b]`.
  Both indices are written with the literal-size constructors `ix1`, `ix2`, so that each lemma applies to a printed
  operation by unification, as the library's leading-unit-axis forms of the same operations do.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(i, u)`, the operand at `i`, whatever the unit
    coordinate `u`: both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.BatchWeights.lean ====
/-
  The second kernel on the whole batch, read entry by entry.

  It holds the 1024 × 256 arrays of per-step scores and per-step rewards. Summing an array along its second axis and
  viewing the 1024 sums as a column gives, in row n, the sum over the 256 steps of trajectory n. The difference of the two
  columns, its largest entry over the batch, the exponentials of the shifted differences, their total and the quotient
  are then the softmax weights of the specification, row by row.
-/
import proofs.«173706_g71854802862086_cont_9to1_m_883_1_alg».proof.Proof.Gen.KernelIdeal.Skeleton
import proofs.«173706_g71854802862086_cont_9to1_m_883_1_alg».proof.Proof.Spec
import proofs.«173706_g71854802862086_cont_9to1_m_883_1_alg».proof.Proof.LibExtremum
import proofs.«173706_g71854802862086_cont_9to1_m_883_1_alg».proof.Proof.LibKeepdims
import Idealize.ShloMosaic.PureOps.Ideal.Laws
import Idealize.ShloMosaic.Lib.Pipeline.Value
import Idealize.ShloMosaic.Lib.ValueLayout

set_option maxRecDepth 16384

noncomputable section

namespace Cert.Policy.Batch

open Cert.KernelIdeal Cert.KernelIdeal.Gen Idealize.ShloMosaic Idealize.ShloMosaic.ValueIdx

/-! ## A row sum kept as a column -/

/-- Summing a 1024 × 256 array along its second axis and viewing the result as a column: row n holds the sum over the
    256 entries of row n, whatever the unit coordinate. -/
theorem rowSum_column_apply (x : Vec Ideal S1024x256 .f32) (n : Fin 1024) (u : Fin 1) :
    shapeCast S1024x1
        (multiReduction (F := Ideal) .add [1] S1024 x 0x00000000#32 reduces_S1024x256_S1024 (.inl rfl) rfl)
        shapeCasts_S1024_S1024x1 (ix2 n u)
      = Cert.Policy.stepSum x n := by
  rw [shapeCast_a_a1_apply]
  refine (Ideal.multiReduction_add_single x 0x00000000#32 reduces_S1024x256_S1024 (.inl rfl) rfl (ix1 n)).trans ?_
  unfold Cert.Policy.stepSum
  exact Finset.sum_congr rfl fun t _ => congrArg x (funext fun a => by
    match a with
    | ⟨0, _⟩ => rfl
    | ⟨1, _⟩ => rfl)

/-- The per-trajectory sums the second kernel stores: row n is the sum over trajectory n's steps. -/
theorem k1_pay1_apply (v0 : Vec Ideal S1024x256 .f32) (n : Fin 1024) (u : Fin 1) :
    k1_pay1 (F := Ideal) v0 (ix2 n u) = Cert.Policy.stepSum v0 n := by
  unfold k1_pay1
  rw [shapeCast_self]
  exact rowSum_column_apply v0 n u

/-! ## Pointwise exp at an index -/

/-- An exp of an array, read at an index, is the exp of the entry there. -/
theorem exp_apply {s : Shape} {φ : FTy} (a : FVec Ideal s φ) (i : s.Idx) : exp a i = Ideal.exp (a i) := rfl

/-! ## A column's entries, indexed by the row -/

/-- The rows of a column with one entry per row are its indices: (n, 0) for row n. -/
def columnRows {a : ℕ} : Fin a ≃ (⟨2, ![a, 1]⟩ : Shape).Idx where
  toFun n := ix2 n (0 : Fin 1)
  invFun i := i 0
  left_inv _ := rfl
  right_inv i := funext fun d => match d with
    | ⟨0, _⟩ => rfl
    | ⟨1, _⟩ => Fin.ext (by have := idx2_lt1 i; show 0 = (i 1).val; omega)

/-- The one-entry vector has one index. -/
instance : Subsingleton S1.Idx :=
  ⟨fun x y => funext fun d => match d with | ⟨0, _⟩ => Subsingleton.elim (α := Fin 1) _ _⟩

/-- Every axis of the one-entry vector has size one. -/
theorem S1_size (b : Fin S1.rank) : S1.size b = 1 := match b with | ⟨0, _⟩ => rfl

/-- A shape cast reads its operand along a bijection of indices: the total of all entries is unchanged. -/
theorem sum_shapeCast {s t : Shape} (v : s.Idx → EReal) (h : s.ShapeCasts t) :
    (∑ j : t.Idx, shapeCast t v h j) = ∑ i : s.Idx, v i :=
  (Shape.reshapeEquiv h).sum_comp v

/-! ## The largest entry and the total of a column, taken over all axes -/

/-- The largest entry of a 1024-row column as the second kernel takes it: the column viewed as 1 × 1024 × 1, the maximum over
    its last two axes started from −∞, and the one entry left read as a single number. -/
abbrev batchMax (c : FVec Ideal S1024x1 .f32) : Ideal .f32 :=
  extractAt ![0, 0, 0]
    (shapeCast S1x1x1
      (multiReduction (F := Ideal) .maximumf [1, 2] S1 (shapeCast S1x1024x1 c shapeCasts_S1024x1_S1x1024x1) 0xFF800000#32
        reduces_S1x1024x1_S1 (.inl rfl) rfl)
      shapeCasts_S1_S1x1x1) inpos_S1x1x1_p0_0_0

/-- The total of a 1024-row column as the second kernel takes it: the same view, the sum over its last two axes started from
    zero, and the one entry left read as a single number. -/
abbrev batchSum (c : FVec Ideal S1024x1 .f32) : Ideal .f32 :=
  extractAt ![0, 0, 0]
    (shapeCast S1x1x1
      (multiReduction (F := Ideal) .add [1, 2] S1 (shapeCast S1x1024x1 c shapeCasts_S1024x1_S1x1024x1) 0x00000000#32
        reduces_S1x1024x1_S1 (.inl rfl) rfl)
      shapeCasts_S1_S1x1x1) inpos_S1x1x1_p0_0_0

/-- That largest entry is the supremum of the column's entries over its rows: the reduction leaves the supremum of every
    entry of its source at its one index, and the two views only rename indices. -/
theorem batchMax_eq (c : FVec Ideal S1024x1 .f32) : batchMax c = ⨆ n : Fin 1024, c (ix2 n (0 : Fin 1)) := by
  unfold batchMax extractAt
  show multiReduction (F := Ideal) .maximumf [1, 2] S1 (shapeCast S1x1024x1 c shapeCasts_S1024x1_S1x1024x1) 0xFF800000#32
    reduces_S1x1024x1_S1 (.inl rfl) rfl _ = _
  refine (Cert.Extremum.iSup_of_subsingleton
    (fun j => multiReduction (F := Ideal) .maximumf [1, 2] S1 (shapeCast S1x1024x1 c shapeCasts_S1024x1_S1x1024x1)
      0xFF800000#32 reduces_S1x1024x1_S1 (.inl rfl) rfl j) _).symm.trans ?_
  refine (Cert.Extremum.iSup_multiReduction_max (φ := .f32) (shapeCast S1x1024x1 c shapeCasts_S1024x1_S1x1024x1)
    0xFF800000#32 reduces_S1x1024x1_S1 (.inl rfl) rfl Cert.Extremum.ofBits_negInf_f32).trans ?_
  refine (Cert.Extremum.iSup_shapeCast c shapeCasts_S1024x1_S1x1024x1).trans ?_
  exact (columnRows.iSup_comp (g := c)).symm

/-- That total is the sum of the column's entries over its rows: into a shape with one index the reduction is the sum over
    every entry of its source, and the view only renames indices. -/
theorem batchSum_eq (c : FVec Ideal S1024x1 .f32) : batchSum c = ∑ n : Fin 1024, c (ix2 n (0 : Fin 1)) := by
  unfold batchSum extractAt
  show multiReduction (F := Ideal) .add [1, 2] S1 (shapeCast S1x1024x1 c shapeCasts_S1024x1_S1x1024x1) 0x00000000#32
    reduces_S1x1024x1_S1 (.inl rfl) rfl _ = _
  refine (Ideal.multiReduction_add_total (shapeCast S1x1024x1 c shapeCasts_S1024x1_S1x1024x1) 0x00000000#32
    reduces_S1x1024x1_S1 S1_size (.inl rfl) rfl _).trans ?_
  refine (sum_shapeCast c shapeCasts_S1024x1_S1x1024x1).trans ?_
  exact (columnRows.sum_comp c).symm

/-! ## The softmax of a column -/

/-- A column whose row m holds r m, shifted by its largest entry, exponentiated and divided by the total of the exponentials:
    row n holds exp (r n − sup r) over the sum of exp (r m − sup r). -/
theorem softmaxColumn_apply (d : FVec Ideal S1024x1 .f32) (r : Fin 1024 → EReal)
    (hd : ∀ (m : Fin 1024) (w : Fin 1), d (ix2 m w) = r m) (n : Fin 1024) (u : Fin 1) :
    divf (exp (subf d (broadcast S1024x1 (batchMax d))))
        (broadcast S1024x1 (batchSum (exp (subf d (broadcast S1024x1 (batchMax d)))))) (ix2 n u)
      = Ideal.div (Ideal.exp (r n - ⨆ m : Fin 1024, r m)) (∑ m : Fin 1024, Ideal.exp (r m - ⨆ m' : Fin 1024, r m')) := by
  rw [divf_apply, broadcast_apply, batchSum_eq, batchMax_eq]
  simp only [exp_apply, subf_apply, broadcast_apply, hd]

/-! ## The softmax weights -/

/-- Row n of the column of weights the second kernel stores is the softmax weight of trajectory n: the column it shifts
    and exponentiates holds, in row m, the summed reward minus the summed score of trajectory m. -/
theorem k1_pay2_apply (v0 v4 : Vec Ideal S1024x256 .f32) (n : Fin 1024) (u : Fin 1) :
    k1_pay2 (F := Ideal) v0 v4 (ix2 n u) = Cert.Policy.weight v0 v4 n := by
  unfold k1_pay2
  exact softmaxColumn_apply
    (subf
      (shapeCast S1024x1
        (multiReduction (F := Ideal) .add [1] S1024 v4 0x00000000#32 reduces_S1024x256_S1024 (.inl rfl) rfl)
        shapeCasts_S1024_S1024x1)
      (k1_pay1 v0))
    (Cert.Policy.logRatio v0 v4)
    (fun m w => by rw [subf_apply, rowSum_column_apply, k1_pay1_apply]; rfl) n u

end Cert.Policy.Batch

end
-- ==== Proof.WeightRegion.lean ====
/-
  The weighting region: one grid point, whose blocks are the whole arrays.

  It stages the 1024 × 256 scores and rewards whole and writes back two whole columns of 1024 entries: the per-trajectory
  sums of the scores, and the normalized weights. Its one point's blocks are the arrays themselves, and its one written
  block of each column covers the column.
-/
import proofs.«173706_g71854802862086_cont_9to1_m_883_1_alg».proof.Proof.Gen.KernelIdeal.Frame
import proofs.«173706_g71854802862086_cont_9to1_m_883_1_alg».proof.Proof.Spec
import proofs.«173706_g71854802862086_cont_9to1_m_883_1_alg».proof.Proof.BatchWeights
import Idealize.ShloMosaic.Lib.Pipeline.Value
import Idealize.ShloMosaic.Lib.ValueIdx

set_option maxRecDepth 16384

noncomputable section

namespace Cert.Policy.WeightRegion

open Cert.KernelIdeal Cert.KernelIdeal.Gen Cert.Policy
open Idealize.ShloMosaic Idealize.ShloMosaic.TcCoe Idealize.ShloMosaic.ValueIdx Idealize.SL.Sem
open Idealize.ShloMosaic.Pipeline (Dat Cfg Window)

theorem origin2 : (![0, 0] : Fin 2 → Nat) = fun _ => 0 := funext fun a => by fin_cases a <;> rfl

/-- The stored column of sums at an index, its operand NAMED. -/
theorem sums_entry (x0 : Vec Ideal S1024x256 .f32) (S : S1024x256.Idx → EReal) (h : x0 = S) (y : S1024x1.Idx) :
    k1_pay1 (F := Ideal) x0 y = stepSum S (y 0) := by
  subst h
  obtain ⟨n, u, rfl⟩ : ∃ (n : Fin 1024) (u : Fin 1), y = ix2 n u := ⟨y 0, y 1, eq_ix2 y⟩
  exact Batch.k1_pay1_apply _ n u

/-- The stored column of weights at an index, its operands NAMED. -/
theorem weights_entry (x0 x1 : Vec Ideal S1024x256 .f32) (S R : S1024x256.Idx → EReal) (h0 : x0 = S) (h1 : x1 = R)
    (y : S1024x1.Idx) : k1_pay2 (F := Ideal) x0 x1 y = weight S R (y 0) := by
  subst h0 h1
  obtain ⟨n, u, rfl⟩ : ∃ (n : Fin 1024) (u : Fin 1), y = ix2 n u := ⟨y 0, y 1, eq_ix2 y⟩
  exact Batch.k1_pay2_apply _ _ n u

-- the buffer contents when the region is entered: a parameter, as in the generated frame
variable (V : (c : Dev nD) → (b : Ref sig .tc) → Buf (Elt Ideal) ((c : Thread nD τ).loc b))

/-- The printed index maps at the one point: every window is on its array's one block. -/
theorem index_facts : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- The staged scores are the whole array of scores. -/
theorem whole_scores (c : Dev nD) (t : Fin cfg1.N) : iblk1 V c 0 t = V c main_v5 := by
  obtain ⟨e0, e1, -⟩ := index_facts t
  funext y
  show V c main_v5 (((cfg1.win 0).blk t).view.emb y) = V c main_v5 y
  refine congrArg _ (funext fun a => Fin.ext ?_)
  match a with
  | ⟨0, _⟩ => show win1_0.index t (0 : Fin 2) * 1024 + 1 * (y 0).val = (y 0).val; omega
  | ⟨1, _⟩ => show win1_0.index t (1 : Fin 2) * 256 + 1 * (y 1).val = (y 1).val; omega

/-- The staged rewards are the whole array of rewards. -/
theorem whole_rewards (c : Dev nD) (t : Fin cfg1.N) : iblk1 V c 1 t = V c main_arg2 := by
  obtain ⟨-, -, e0, e1, -⟩ := index_facts t
  funext y
  show V c main_arg2 (((cfg1.win 1).blk t).view.emb y) = V c main_arg2 y
  refine congrArg _ (funext fun a => Fin.ext ?_)
  match a with
  | ⟨0, _⟩ => show win1_1.index t (0 : Fin 2) * 1024 + 1 * (y 0).val = (y 0).val; omega
  | ⟨1, _⟩ => show win1_1.index t (1 : Fin 2) * 256 + 1 * (y 1).val = (y 1).val; omega

/-! ## What the point writes back -/

/-- The written column of weights: entry (n, 0) is trajectory n's weight. -/
theorem weights_flushed (c : Dev nD) (t : Fin cfg1.N) :
    (dat1 V c).flushed 2 t
      = ((cfg1.win 2).blk t).view.read (Elt Ideal) (fun i => weight (V c main_v5) (V c main_arg2) (i 0)) := by
  show (cfg1.win 2).cut (grid1.coords t) ((dat1 V c).after 2 t) = _
  rw [after1_2]
  unfold out1_2
  rw [View.canon_unit_zero origin2]
  simp only [View.ld_unit_zero (S := S1024x256) origin2]
  obtain ⟨-, -, -, -, e0, e1, -⟩ := index_facts t
  funext y
  show k1_pay2 (iblk1 V c 0 t) (iblk1 V c 1 t) y
      = weight (V c main_v5) (V c main_arg2) ((((cfg1.win 2).blk t).view.emb y) 0)
  refine (weights_entry (iblk1 V c 0 t) (iblk1 V c 1 t) (V c main_v5) (V c main_arg2) (whole_scores V c t)
    (whole_rewards V c t) y).trans (congrArg _ (Fin.ext ?_))
  show (y 0).val = win1_2.index t (0 : Fin 2) * 1024 + 1 * (y 0).val
  omega

/-- The written column of sums: entry (n, 0) is trajectory n's summed score. -/
theorem sums_flushed (c : Dev nD) (t : Fin cfg1.N) :
    (dat1 V c).flushed 3 t = ((cfg1.win 3).blk t).view.read (Elt Ideal) (fun i => stepSum (V c main_v5) (i 0)) := by
  show (cfg1.win 3).cut (grid1.coords t) ((dat1 V c).after 3 t) = _
  rw [after1_3]
  unfold out1_3
  rw [View.canon_unit_zero origin2]
  simp only [View.ld_unit_zero (S := S1024x256) origin2]
  obtain ⟨-, -, -, -, -, -, e0, e1⟩ := index_facts t
  funext y
  show k1_pay1 (iblk1 V c 0 t) y = stepSum (V c main_v5) ((((cfg1.win 3).blk t).view.emb y) 0)
  refine (sums_entry (iblk1 V c 0 t) (V c main_v5) (whole_scores V c t) y).trans (congrArg _ (Fin.ext ?_))
  show (y 0).val = win1_3.index t (0 : Fin 2) * 1024 + 1 * (y 0).val
  omega

/-! ## The one block covers its column -/

theorem mem_weights_block (t : Fin cfg1.N) (i : S1024x1.Idx) :
    i ∈ ((cfg1.win 2).blk t).view.set ↔ ∀ a : Fin 2, win1_2.index t a * S1024x1.size a ≤ (i a).val ∧ (i a).val < win1_2.index t a * S1024x1.size a + S1024x1.size a := by
  show i ∈ ((View.whole main_v6_0).slice (win1_2.rect t)).set ↔ _
  rw [View.set_slice_whole, Rect.mem_set_unit]
  exact Iff.rfl

theorem mem_sums_block (t : Fin cfg1.N) (i : S1024x1.Idx) :
    i ∈ ((cfg1.win 3).blk t).view.set ↔ ∀ a : Fin 2, win1_3.index t a * S1024x1.size a ≤ (i a).val ∧ (i a).val < win1_3.index t a * S1024x1.size a + S1024x1.size a := by
  show i ∈ ((View.whole main_v6_1).slice (win1_3.rect t)).set ↔ _
  rw [View.set_slice_whole, Rect.mem_set_unit]
  exact Iff.rfl

theorem weights_covered (i : S1024x1.Idx) :
    ∃ t : Fin cfg1.N, (cfg1.win 2).flush t = true ∧ i ∈ ((cfg1.win 2).blk t).view.set := by
  have t0 : Fin cfg1.N := ⟨0, by decide⟩
  obtain ⟨-, -, -, -, e0, e1, -⟩ := index_facts t0
  refine ⟨t0, flush1_2 _, ?_⟩
  rw [mem_weights_block]
  intro a
  have h0 : (i 0).val < 1024 := (i 0).isLt
  have h1 : (i 1).val < 1 := (i 1).isLt
  match a with
  | ⟨0, _⟩ => show win1_2.index t0 (0 : Fin 2) * 1024 ≤ (i 0).val ∧ (i 0).val < win1_2.index t0 (0 : Fin 2) * 1024 + 1024; omega
  | ⟨1, _⟩ => show win1_2.index t0 (1 : Fin 2) * 1 ≤ (i 1).val ∧ (i 1).val < win1_2.index t0 (1 : Fin 2) * 1 + 1; omega

theorem sums_covered (i : S1024x1.Idx) :
    ∃ t : Fin cfg1.N, (cfg1.win 3).flush t = true ∧ i ∈ ((cfg1.win 3).blk t).view.set := by
  have t0 : Fin cfg1.N := ⟨0, by decide⟩
  obtain ⟨-, -, -, -, -, -, e0, e1⟩ := index_facts t0
  refine ⟨t0, flush1_3 _, ?_⟩
  rw [mem_sums_block]
  intro a
  have h0 : (i 0).val < 1024 := (i 0).isLt
  have h1 : (i 1).val < 1 := (i 1).isLt
  match a with
  | ⟨0, _⟩ => show win1_3.index t0 (0 : Fin 2) * 1024 ≤ (i 0).val ∧ (i 0).val < win1_3.index t0 (0 : Fin 2) * 1024 + 1024; omega
  | ⟨1, _⟩ => show win1_3.index t0 (1 : Fin 2) * 1 ≤ (i 1).val ∧ (i 1).val < win1_3.index t0 (1 : Fin 2) * 1 + 1; omega

/-- After the region the weights' column holds each trajectory's weight, from the scores and rewards the region found. -/
theorem weights_after (c : Dev nD) :
    (dat1 V c).arrAt 2 cfg1.N = fun i => weight (V c main_v5) (V c main_arg2) (i 0) :=
  (dat1 V c).arrAt_eq_of_cover 2 _ (fun t _ => weights_flushed V c t) weights_covered

/-- After the region the sums' column holds each trajectory's summed score. -/
theorem sums_after (c : Dev nD) : (dat1 V c).arrAt 3 cfg1.N = fun i => stepSum (V c main_v5) (i 0) :=
  (dat1 V c).arrAt_eq_of_cover 3 _ (fun t _ => sums_flushed V c t) sums_covered

end Cert.Policy.WeightRegion

end
-- ==== Proof.KernelValue.lean ====
/-
  The idealized kernel's two results as functions of its arguments.

  The run ends with every buffer at the last of six boundary contents, each made from the one before: the reshapes of the
  states, the actions and the two biases; the scoring region, which leaves the score column; the reshape of that column
  to 1024 trajectories × 256 steps; the weighting region, which leaves the column of per-trajectory sums and the column
  of weights; and the reshapes of those two columns to vectors. Walking a result buffer back through the six gives it as
  a function of the arguments: a reshape reads its operand; a region's output array holds what its points wrote; a buffer
  nothing in a segment writes holds what it held.
-/
import proofs.«173706_g71854802862086_cont_9to1_m_883_1_alg».proof.Proof.KernelIdealRun
import proofs.«173706_g71854802862086_cont_9to1_m_883_1_alg».proof.Proof.ScoreRegion
import proofs.«173706_g71854802862086_cont_9to1_m_883_1_alg».proof.Proof.WeightRegion
import Idealize.ShloMosaic.Lib.StableHlo.Run

set_option maxRecDepth 16384

noncomputable section

namespace Cert.Policy.KernelSide

open Cert.KernelIdeal Cert.KernelIdeal.Gen Cert.Policy
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

/-! ## What the scoring region finds: the first stretch of reshapes over the launch memory -/

theorem states_entered (c : Dev nD) :
    V1 m ρ c main_v0 = shapeCast S262144x128 (m ((c : Thread nD τ).loc main_arg0)) shapeCasts_S1024x256x128_S262144x128 := by
  show StableHlo.after hostOps0 (W0 m ρ c) (Proc.devRef .tc main_v0) = _
  after_results
  rfl

theorem actions_entered (c : Dev nD) :
    V1 m ρ c main_v1 = shapeCast S262144x32 (m ((c : Thread nD τ).loc main_arg1)) shapeCasts_S1024x256x32_S262144x32 := by
  show StableHlo.after hostOps0 (W0 m ρ c) (Proc.devRef .tc main_v1) = _
  after_results
  rfl

theorem bias1_entered (c : Dev nD) :
    V1 m ρ c main_v2 = shapeCast S1x512 (m ((c : Thread nD τ).loc main_arg5)) shapeCasts_S512_S1x512 := by
  show StableHlo.after hostOps0 (W0 m ρ c) (Proc.devRef .tc main_v2) = _
  after_results
  rfl

theorem bias3_entered (c : Dev nD) :
    V1 m ρ c main_v3 = shapeCast S1x512 (m ((c : Thread nD τ).loc main_arg7)) shapeCasts_S512_S1x512 := by
  show StableHlo.after hostOps0 (W0 m ρ c) (Proc.devRef .tc main_v3) = _
  after_results
  rfl

theorem rewards_entered (c : Dev nD) : V1 m ρ c main_arg2 = m ((c : Thread nD τ).loc main_arg2) := by
  show StableHlo.after hostOps0 (W0 m ρ c) (Proc.devRef .tc main_arg2) = _
  after_results

theorem weight1_entered (c : Dev nD) : V1 m ρ c main_arg3 = m ((c : Thread nD τ).loc main_arg3) := by
  show StableHlo.after hostOps0 (W0 m ρ c) (Proc.devRef .tc main_arg3) = _
  after_results

theorem weight2_entered (c : Dev nD) : V1 m ρ c main_arg4 = m ((c : Thread nD τ).loc main_arg4) := by
  show StableHlo.after hostOps0 (W0 m ρ c) (Proc.devRef .tc main_arg4) = _
  after_results

theorem weight3_entered (c : Dev nD) : V1 m ρ c main_arg6 = m ((c : Thread nD τ).loc main_arg6) := by
  show StableHlo.after hostOps0 (W0 m ρ c) (Proc.devRef .tc main_arg6) = _
  after_results

theorem output_entered (c : Dev nD) : V1 m ρ c main_arg8 = m ((c : Thread nD τ).loc main_arg8) := by
  show StableHlo.after hostOps0 (W0 m ρ c) (Proc.devRef .tc main_arg8) = _
  after_results

/-! ## From the scoring region to the weighting region -/

/-- At the scoring region's exit its output array holds what its points wrote. -/
theorem column_left (c : Dev nD) : W2 m ρ c (Proc.devRef .tc main_v4) = (dat0 (V1 m ρ) c).arrAt 8 cfg0.N :=
  W2_arr m ρ c 8

/-- The weighting region finds the score column reshaped to trajectories × steps. -/
theorem scores_entered (c : Dev nD) :
    V3 m ρ c main_v5 = shapeCast S1024x256 (W2 m ρ c (Proc.devRef .tc main_v4)) shapeCasts_S262144x1_S1024x256 := by
  show StableHlo.after hostOps1 (W2 m ρ c) (Proc.devRef .tc main_v5) = _
  after_results
  rfl

/-- The weighting region finds the rewards as launched: the reshape between the regions does not write them, and the
    scoring region does not either. -/
theorem rewards_entered' (c : Dev nD) : V3 m ρ c main_arg2 = m ((c : Thread nD τ).loc main_arg2) := by
  show StableHlo.after hostOps1 (W2 m ρ c) (Proc.devRef .tc main_arg2) = _
  after_results
  rw [W2_of_ne m ρ c main_arg2 (by decide)]
  exact rewards_entered m ρ c

/-! ## From the weighting region to the results -/

theorem weights_left (c : Dev nD) : W4 m ρ c (Proc.devRef .tc main_v6_0) = (dat1 (V3 m ρ) c).arrAt 2 cfg1.N :=
  W4_arr m ρ c 2

theorem sums_left (c : Dev nD) : W4 m ρ c (Proc.devRef .tc main_v6_1) = (dat1 (V3 m ρ) c).arrAt 3 cfg1.N :=
  W4_arr m ρ c 3

theorem weights_returned (c : Dev nD) :
    W5 m ρ c (Proc.devRef .tc main_v7) = shapeCast S1024 (W4 m ρ c (Proc.devRef .tc main_v6_0)) shapeCasts_S1024x1_S1024 := by
  show StableHlo.after hostOps2 (W4 m ρ c) (Proc.devRef .tc main_v7) = _
  after_results
  rfl

theorem sums_returned (c : Dev nD) :
    W5 m ρ c (Proc.devRef .tc main_v8) = shapeCast S1024 (W4 m ρ c (Proc.devRef .tc main_v6_1)) shapeCasts_S1024x1_S1024 := by
  show StableHlo.after hostOps2 (W4 m ρ c) (Proc.devRef .tc main_v8) = _
  after_results
  rfl

/-! ## The two results -/

/-- The scores as the weighting region finds them: the score column of the arrays the scoring region found, reshaped
    to trajectories × steps. -/
def scoreTable (c : Dev nD) : S1024x256.Idx → EReal :=
  shapeCast S1024x256 (ScoreRegion.scores (V1 m ρ) c) shapeCasts_S262144x1_S1024x256

theorem scores_entered_eq (c : Dev nD) : V3 m ρ c main_v5 = scoreTable m ρ c := by
  rw [scores_entered, column_left, ScoreRegion.column_after]
  rfl

/-- The first result: each trajectory's weight, from the score table and the rewards as launched. -/
theorem weights_result (c : Dev nD) :
    W5 m ρ c (Proc.devRef .tc main_v7)
      = shapeCast S1024 (fun i : S1024x1.Idx => weight (scoreTable m ρ c) (m ((c : Thread nD τ).loc main_arg2)) (i 0))
          shapeCasts_S1024x1_S1024 := by
  rw [weights_returned, weights_left, WeightRegion.weights_after, scores_entered_eq, rewards_entered']
  rfl

/-- The second result: each trajectory's summed score. -/
theorem sums_result (c : Dev nD) :
    W5 m ρ c (Proc.devRef .tc main_v8)
      = shapeCast S1024 (fun i : S1024x1.Idx => stepSum (scoreTable m ρ c) (i 0)) shapeCasts_S1024x1_S1024 := by
  rw [sums_returned, sums_left, WeightRegion.sums_after, scores_entered_eq]
  rfl

/-- The run, with both results as functions of the arguments and the arguments unchanged. -/
theorem run : θ_run defs (onTc (τ := τ) (main (F := Ideal))) ⟨m, fun _ => 0, ρ⟩ (fun r => ∀ c : Dev nD,
      r.2.mem ((c.tc : Thread nD τ).loc main_v7)
        = shapeCast S1024 (fun i : S1024x1.Idx => weight (scoreTable m ρ c) (m ((c : Thread nD τ).loc main_arg2)) (i 0))
            shapeCasts_S1024x1_S1024
      ∧ r.2.mem ((c.tc : Thread nD τ).loc main_v8)
        = shapeCast S1024 (fun i : S1024x1.Idx => stepSum (scoreTable m ρ c) (i 0)) shapeCasts_S1024x1_S1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (weights_result m ρ c), (h c).2.1.trans (sums_result m ρ c), (h c).2.2⟩)
    (Cert.KernelIdeal.Named.run_named m ρ)

end Cert.Policy.KernelSide

end
-- ==== Proof.RefStages.lean ====
/-
  The reference, stage by stage, is the specification.

  The reference scores every (state, action) pair by the two-layer network, adds the scores of a trajectory's steps,
  subtracts that from the trajectory's summed reward, shifts by the largest difference over the batch, exponentiates
  and divides by the total of the exponentials. Read at an index each stage is the specification's function of the
  same name: the matrix products are finite sums over the contracted coordinate, the biases are read along their one
  axis, the reshapes only rename indices, and the maximum over the batch from −∞ is the supremum.
-/
import proofs.«173706_g71854802862086_cont_9to1_m_883_1_alg».proof.Proof.Gen.ReferenceIdeal.Read
import proofs.«173706_g71854802862086_cont_9to1_m_883_1_alg».proof.Proof.Spec
import proofs.«173706_g71854802862086_cont_9to1_m_883_1_alg».proof.Proof.LibExtremum

noncomputable section

namespace Cert.Policy.Ref

open Cert.ReferenceIdeal Cert.ReferenceIdeal.Gen Cert.ReferenceIdeal.Read Idealize.ShloMosaic Idealize.ShloMosaic.ValueIdx

/-- The summed score of trajectory `n`: the zero the sum starts from adds nothing, and the reduced axis is the steps'. -/
theorem sum_apply (X0 : (⟨S1024x256x128, .f32⟩ : BufTy).Contents (Elt Ideal)) (X1 : (⟨S1024x256x32, .f32⟩ : BufTy).Contents (Elt Ideal))
    (X3 : (⟨S128x512, .f32⟩ : BufTy).Contents (Elt Ideal)) (X4 : (⟨S32x512, .f32⟩ : BufTy).Contents (Elt Ideal))
    (X5 : (⟨S512, .f32⟩ : BufTy).Contents (Elt Ideal)) (X6 : (⟨S512x512, .f32⟩ : BufTy).Contents (Elt Ideal))
    (X7 : (⟨S512, .f32⟩ : BufTy).Contents (Elt Ideal)) (X8 : (⟨S512x1, .f32⟩ : BufTy).Contents (Elt Ideal)) (n : Fin 1024) :
    val_main_v16 (F := Ideal) X0 X1 X3 X4 X5 X6 X7 X8 (ix1 n)
      = Cert.Policy.stepSum (val_main_v15 (F := Ideal) X0 X1 X3 X4 X5 X6 X7 X8) n := by
  rw [val_main_v16_apply]
  generalize val_main_v15 (F := Ideal) X0 X1 X3 X4 X5 X6 X7 X8 = S
  rw [val_main_cst_apply]
  show Ideal.ofBits .f32 0x00000000#32 + _ = _
  rw [Ideal.ofBits_zero_f32, zero_add]
  unfold Cert.Policy.stepSum
  refine Finset.sum_congr rfl fun k _ => congrArg S ?_
  funext a
  match a with
  | ⟨0, _⟩ => rfl
  | ⟨1, _⟩ => rfl

/-! ## The score of one pair -/

/-- Unit `j` of the first layer at row `r`: the two products read the row's own state and action entries, and the bias
    is read along its one axis. -/
theorem hidden1_apply (X0 : (⟨S1024x256x128, .f32⟩ : BufTy).Contents (Elt Ideal)) (X1 : (⟨S1024x256x32, .f32⟩ : BufTy).Contents (Elt Ideal))
    (X3 : (⟨S128x512, .f32⟩ : BufTy).Contents (Elt Ideal)) (X4 : (⟨S32x512, .f32⟩ : BufTy).Contents (Elt Ideal))
    (X5 : (⟨S512, .f32⟩ : BufTy).Contents (Elt Ideal)) (r : Fin 262144) (j : Fin 512) :
    val_main_v8 (F := Ideal) X0 X1 X3 X4 X5 (ix2 r j)
      = Cert.Policy.hidden1 (fun i => val_main_v0 (F := Ideal) X0 (ix2 r i)) (fun i => val_main_v1 (F := Ideal) X1 (ix2 r i))
          X3 X4 (fun j => X5 (ix1 j)) j := by
  have el2 : ∀ k : Fin 128, lidx_main_v2 (ix2 r j) k = ix2 r k := fun k =>
    funext fun a => Fin.ext (by match a with | ⟨0, _⟩ => rfl | ⟨1, _⟩ => rfl)
  have er2 : ∀ k : Fin 128, ridx_main_v2 (ix2 r j) k = ix2 k j := fun k =>
    funext fun a => Fin.ext (by match a with | ⟨0, _⟩ => rfl | ⟨1, _⟩ => rfl)
  have el3 : ∀ k : Fin 32, lidx_main_v3 (ix2 r j) k = ix2 r k := fun k =>
    funext fun a => Fin.ext (by match a with | ⟨0, _⟩ => rfl | ⟨1, _⟩ => rfl)
  have er3 : ∀ k : Fin 32, ridx_main_v3 (ix2 r j) k = ix2 k j := fun k =>
    funext fun a => Fin.ext (by match a with | ⟨0, _⟩ => rfl | ⟨1, _⟩ => rfl)
  have eb : idx_main_v5 (idx_main_v6 (ix2 r j)) = ix1 j :=
    funext fun a => Fin.ext (by match a with | ⟨0, _⟩ => rfl)
  rw [val_main_v8_apply, val_main_v7_apply, val_main_v4_apply, val_main_v2_apply, val_main_v3_apply, val_main_v6_apply,
    val_main_v5_apply]
  simp only [el2, er2, el3, er3, eb, Ideal.hostUnary_tanh_def, Ideal.addf_def]
  rfl

/-- Unit `k` of the second layer at row `r`, from the first layer's values at the same row. -/
theorem hidden2_apply (X0 : (⟨S1024x256x128, .f32⟩ : BufTy).Contents (Elt Ideal)) (X1 : (⟨S1024x256x32, .f32⟩ : BufTy).Contents (Elt Ideal))
    (X3 : (⟨S128x512, .f32⟩ : BufTy).Contents (Elt Ideal)) (X4 : (⟨S32x512, .f32⟩ : BufTy).Contents (Elt Ideal))
    (X5 : (⟨S512, .f32⟩ : BufTy).Contents (Elt Ideal)) (X6 : (⟨S512x512, .f32⟩ : BufTy).Contents (Elt Ideal))
    (X7 : (⟨S512, .f32⟩ : BufTy).Contents (Elt Ideal)) (r : Fin 262144) (k : Fin 512) :
    val_main_v13 (F := Ideal) X0 X1 X3 X4 X5 X6 X7 (ix2 r k)
      = Cert.Policy.hidden2 (Cert.Policy.hidden1 (fun i => val_main_v0 (F := Ideal) X0 (ix2 r i))
          (fun i => val_main_v1 (F := Ideal) X1 (ix2 r i)) X3 X4 (fun j => X5 (ix1 j))) X6 (fun j => X7 (ix1 j)) k := by
  have el : ∀ j : Fin 512, lidx_main_v9 (ix2 r k) j = ix2 r j := fun j =>
    funext fun a => Fin.ext (by match a with | ⟨0, _⟩ => rfl | ⟨1, _⟩ => rfl)
  have er : ∀ j : Fin 512, ridx_main_v9 (ix2 r k) j = ix2 j k := fun j =>
    funext fun a => Fin.ext (by match a with | ⟨0, _⟩ => rfl | ⟨1, _⟩ => rfl)
  have eb : idx_main_v10 (idx_main_v11 (ix2 r k)) = ix1 k :=
    funext fun a => Fin.ext (by match a with | ⟨0, _⟩ => rfl)
  rw [val_main_v13_apply, val_main_v12_apply, val_main_v9_apply, val_main_v11_apply, val_main_v10_apply]
  simp only [el, er, eb, hidden1_apply, Ideal.hostUnary_tanh_def, Ideal.addf_def]
  rfl

/-- The score at row `r`: the second layer's values at that row against the output column. -/
theorem score_apply (X0 : (⟨S1024x256x128, .f32⟩ : BufTy).Contents (Elt Ideal)) (X1 : (⟨S1024x256x32, .f32⟩ : BufTy).Contents (Elt Ideal))
    (X3 : (⟨S128x512, .f32⟩ : BufTy).Contents (Elt Ideal)) (X4 : (⟨S32x512, .f32⟩ : BufTy).Contents (Elt Ideal))
    (X5 : (⟨S512, .f32⟩ : BufTy).Contents (Elt Ideal)) (X6 : (⟨S512x512, .f32⟩ : BufTy).Contents (Elt Ideal))
    (X7 : (⟨S512, .f32⟩ : BufTy).Contents (Elt Ideal)) (X8 : (⟨S512x1, .f32⟩ : BufTy).Contents (Elt Ideal))
    (r : Fin 262144) (u : Fin 1) :
    val_main_v14 (F := Ideal) X0 X1 X3 X4 X5 X6 X7 X8 (ix2 r u)
      = Cert.Policy.pairScore (fun i => val_main_v0 (F := Ideal) X0 (ix2 r i)) (fun i => val_main_v1 (F := Ideal) X1 (ix2 r i))
          X3 X4 (fun j => X5 (ix1 j)) X6 (fun j => X7 (ix1 j)) X8 := by
  obtain rfl : u = 0 := Subsingleton.elim u 0
  have el : ∀ k : Fin 512, lidx_main_v14 (ix2 r (0 : Fin 1)) k = ix2 r k := fun k =>
    funext fun a => Fin.ext (by match a with | ⟨0, _⟩ => rfl | ⟨1, _⟩ => rfl)
  have er : ∀ k : Fin 512, ridx_main_v14 (ix2 r (0 : Fin 1)) k = ix2 k (0 : Fin 1) := fun k =>
    funext fun a => Fin.ext (by match a with | ⟨0, _⟩ => rfl | ⟨1, _⟩ => rfl)
  rw [val_main_v14_apply]
  simp only [el, er, hidden2_apply]
  rfl

/-! ## Per trajectory, and over the batch -/

/-- A rank-1 index set of extent 1024 is its one coordinate's range. -/
def idxEquiv1024 : Fin 1024 ≃ S1024.Idx where
  toFun n := ix1 n
  invFun j := j 0
  left_inv _ := rfl
  right_inv j := (eq_ix1 j).symm

/-- Summed reward minus summed score of trajectory `n`: both sums start from zero, which adds nothing. -/
theorem logRatio_apply (X0 : (⟨S1024x256x128, .f32⟩ : BufTy).Contents (Elt Ideal)) (X1 : (⟨S1024x256x32, .f32⟩ : BufTy).Contents (Elt Ideal))
    (X2 : (⟨S1024x256, .f32⟩ : BufTy).Contents (Elt Ideal))
    (X3 : (⟨S128x512, .f32⟩ : BufTy).Contents (Elt Ideal)) (X4 : (⟨S32x512, .f32⟩ : BufTy).Contents (Elt Ideal))
    (X5 : (⟨S512, .f32⟩ : BufTy).Contents (Elt Ideal)) (X6 : (⟨S512x512, .f32⟩ : BufTy).Contents (Elt Ideal))
    (X7 : (⟨S512, .f32⟩ : BufTy).Contents (Elt Ideal)) (X8 : (⟨S512x1, .f32⟩ : BufTy).Contents (Elt Ideal)) (n : Fin 1024) :
    val_main_v18 (F := Ideal) X0 X1 X2 X3 X4 X5 X6 X7 X8 (ix1 n) = Cert.Policy.logRatio (val_main_v15 (F := Ideal) X0 X1 X3 X4 X5 X6 X7 X8) X2 n := by
  rw [val_main_v18_apply, sum_apply, val_main_v17_apply, val_main_cst_0_apply]
  generalize val_main_v15 (F := Ideal) X0 X1 X3 X4 X5 X6 X7 X8 = S
  show (Ideal.ofBits .f32 0x00000000#32 + _) - _ = _
  rw [Ideal.ofBits_zero_f32, zero_add]
  unfold Cert.Policy.logRatio
  refine congrArg (· - Cert.Policy.stepSum S n) ?_
  unfold Cert.Policy.stepSum
  refine Finset.sum_congr rfl fun k _ => congrArg X2 ?_
  funext a
  match a with
  | ⟨0, _⟩ => rfl
  | ⟨1, _⟩ => rfl

/-- The maximum over the batch, started from −∞, is the supremum of the differences. -/
theorem peak_apply (X0 : (⟨S1024x256x128, .f32⟩ : BufTy).Contents (Elt Ideal)) (X1 : (⟨S1024x256x32, .f32⟩ : BufTy).Contents (Elt Ideal))
    (X2 : (⟨S1024x256, .f32⟩ : BufTy).Contents (Elt Ideal))
    (X3 : (⟨S128x512, .f32⟩ : BufTy).Contents (Elt Ideal)) (X4 : (⟨S32x512, .f32⟩ : BufTy).Contents (Elt Ideal))
    (X5 : (⟨S512, .f32⟩ : BufTy).Contents (Elt Ideal)) (X6 : (⟨S512x512, .f32⟩ : BufTy).Contents (Elt Ideal))
    (X7 : (⟨S512, .f32⟩ : BufTy).Contents (Elt Ideal)) (X8 : (⟨S512x1, .f32⟩ : BufTy).Contents (Elt Ideal)) (i : S_.Idx) :
    val_main_v19 (F := Ideal) X0 X1 X2 X3 X4 X5 X6 X7 X8 i = Cert.Policy.peak (val_main_v15 (F := Ideal) X0 X1 X3 X4 X5 X6 X7 X8) X2 := by
  unfold val_main_v19
  rw [Host.reduce_eq_fold (FloatOps.maximumf (F := Ideal) (φ := .f32)) _ _ reducesTo_S1024_S_d0 h_S_ i,
    Finset.filter_true_of_mem (fun j _ => funext fun b => b.elim0), val_main_cst_1_apply,
    Cert.Extremum.ofBits_negInf_f32]
  show Finset.univ.fold max (⊥ : EReal) _ = _
  rw [Cert.Extremum.fold_max_bot_univ, ← Equiv.iSup_comp idxEquiv1024]
  unfold Cert.Policy.peak
  exact iSup_congr fun n => logRatio_apply X0 X1 X2 X3 X4 X5 X6 X7 X8 n

/-- The exponential of trajectory `n`'s difference shifted by the largest (the stage the quotient's numerator reads). -/
theorem shifted_apply (X0 : (⟨S1024x256x128, .f32⟩ : BufTy).Contents (Elt Ideal)) (X1 : (⟨S1024x256x32, .f32⟩ : BufTy).Contents (Elt Ideal))
    (X2 : (⟨S1024x256, .f32⟩ : BufTy).Contents (Elt Ideal))
    (X3 : (⟨S128x512, .f32⟩ : BufTy).Contents (Elt Ideal)) (X4 : (⟨S32x512, .f32⟩ : BufTy).Contents (Elt Ideal))
    (X5 : (⟨S512, .f32⟩ : BufTy).Contents (Elt Ideal)) (X6 : (⟨S512x512, .f32⟩ : BufTy).Contents (Elt Ideal))
    (X7 : (⟨S512, .f32⟩ : BufTy).Contents (Elt Ideal)) (X8 : (⟨S512x1, .f32⟩ : BufTy).Contents (Elt Ideal)) (n : Fin 1024) :
    val_main_v22 (F := Ideal) X0 X1 X2 X3 X4 X5 X6 X7 X8 (ix1 n) = Cert.Policy.shifted (val_main_v15 (F := Ideal) X0 X1 X3 X4 X5 X6 X7 X8) X2 n := by
  rw [val_main_v22_apply, val_main_v21_apply, val_main_v20_apply, logRatio_apply, peak_apply]
  rfl

/-- The same exponential, as the stage the total reads. -/
theorem shifted_apply' (X0 : (⟨S1024x256x128, .f32⟩ : BufTy).Contents (Elt Ideal)) (X1 : (⟨S1024x256x32, .f32⟩ : BufTy).Contents (Elt Ideal))
    (X2 : (⟨S1024x256, .f32⟩ : BufTy).Contents (Elt Ideal))
    (X3 : (⟨S128x512, .f32⟩ : BufTy).Contents (Elt Ideal)) (X4 : (⟨S32x512, .f32⟩ : BufTy).Contents (Elt Ideal))
    (X5 : (⟨S512, .f32⟩ : BufTy).Contents (Elt Ideal)) (X6 : (⟨S512x512, .f32⟩ : BufTy).Contents (Elt Ideal))
    (X7 : (⟨S512, .f32⟩ : BufTy).Contents (Elt Ideal)) (X8 : (⟨S512x1, .f32⟩ : BufTy).Contents (Elt Ideal)) (n : Fin 1024) :
    val_main_v23 (F := Ideal) X0 X1 X2 X3 X4 X5 X6 X7 X8 (ix1 n) = Cert.Policy.shifted (val_main_v15 (F := Ideal) X0 X1 X3 X4 X5 X6 X7 X8) X2 n := by
  rw [val_main_v23_apply, val_main_v21_apply, val_main_v20_apply, logRatio_apply, peak_apply]
  rfl

/-- The total of the shifted exponentials: a sum over every index of a rank-1 array is the sum over its coordinate. -/
theorem mass_apply (X0 : (⟨S1024x256x128, .f32⟩ : BufTy).Contents (Elt Ideal)) (X1 : (⟨S1024x256x32, .f32⟩ : BufTy).Contents (Elt Ideal))
    (X2 : (⟨S1024x256, .f32⟩ : BufTy).Contents (Elt Ideal))
    (X3 : (⟨S128x512, .f32⟩ : BufTy).Contents (Elt Ideal)) (X4 : (⟨S32x512, .f32⟩ : BufTy).Contents (Elt Ideal))
    (X5 : (⟨S512, .f32⟩ : BufTy).Contents (Elt Ideal)) (X6 : (⟨S512x512, .f32⟩ : BufTy).Contents (Elt Ideal))
    (X7 : (⟨S512, .f32⟩ : BufTy).Contents (Elt Ideal)) (X8 : (⟨S512x1, .f32⟩ : BufTy).Contents (Elt Ideal)) (i : S_.Idx) :
    val_main_v24 (F := Ideal) X0 X1 X2 X3 X4 X5 X6 X7 X8 i = Cert.Policy.mass (val_main_v15 (F := Ideal) X0 X1 X3 X4 X5 X6 X7 X8) X2 := by
  rw [val_main_v24_apply, val_main_cst_2_apply]
  show Ideal.ofBits .f32 0x00000000#32 + _ = _
  rw [Ideal.ofBits_zero_f32, zero_add, ← Equiv.sum_comp idxEquiv1024]
  unfold Cert.Policy.mass
  exact Finset.sum_congr rfl fun n _ => shifted_apply' X0 X1 X2 X3 X4 X5 X6 X7 X8 n

/-- The normalized weight of trajectory `n`. -/
theorem weight_apply (X0 : (⟨S1024x256x128, .f32⟩ : BufTy).Contents (Elt Ideal)) (X1 : (⟨S1024x256x32, .f32⟩ : BufTy).Contents (Elt Ideal))
    (X2 : (⟨S1024x256, .f32⟩ : BufTy).Contents (Elt Ideal))
    (X3 : (⟨S128x512, .f32⟩ : BufTy).Contents (Elt Ideal)) (X4 : (⟨S32x512, .f32⟩ : BufTy).Contents (Elt Ideal))
    (X5 : (⟨S512, .f32⟩ : BufTy).Contents (Elt Ideal)) (X6 : (⟨S512x512, .f32⟩ : BufTy).Contents (Elt Ideal))
    (X7 : (⟨S512, .f32⟩ : BufTy).Contents (Elt Ideal)) (X8 : (⟨S512x1, .f32⟩ : BufTy).Contents (Elt Ideal)) (n : Fin 1024) :
    val_main_v26 (F := Ideal) X0 X1 X2 X3 X4 X5 X6 X7 X8 (ix1 n) = Cert.Policy.weight (val_main_v15 (F := Ideal) X0 X1 X3 X4 X5 X6 X7 X8) X2 n := by
  rw [val_main_v26_apply, shifted_apply, val_main_v25_apply, mass_apply]
  rfl

end Cert.Policy.Ref

end
-- ==== Proof.LibColumnVector.lean ====
/-
  A column read as a vector: an array of shape [a, 1] cast to [a] reads, at i, the column's entry of row i. Both have
  row-major position i. (The converse, [a] cast to [a, 1], and the same two for a leading unit axis, are read the same way.)
-/
import Idealize.ShloMosaic.Lib.Pipeline.Value
import Idealize.ShloMosaic.Lib.ValueIdx

namespace Idealize.ShloMosaic.ValueIdx

open Idealize.ShloMosaic

variable {α : Type}

/-- An `[a, 1]` column cast to the vector `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ValueIdx
-- ==== Proof.Bridge.lean ====
/-
  The two programs return the same two vectors.

  Each side has been brought to the specification's functions: the kernel's results are the weights and the summed scores
  of its score table, which is the score column of the reshaped arguments viewed as trajectories × steps; the reference's
  results are the weights and the summed scores of ITS score table, the reshape of its own score column. So it is enough
  that the two score columns agree entry by entry. Entry r of either is the score of the pair whose state and action are
  row r of the flattened arguments, under the same weights and biases: the kernel reads a bias through its reshape to
  one row, the reference through its broadcasts, and both read entry j of the bias vector.
-/
import proofs.«173706_g71854802862086_cont_9to1_m_883_1_alg».proof.Proof.KernelValue
import proofs.«173706_g71854802862086_cont_9to1_m_883_1_alg».proof.Proof.RefStages
import proofs.«173706_g71854802862086_cont_9to1_m_883_1_alg».proof.Proof.LibColumnVector
import Idealize.ShloMosaic.Lib.ValueLayout

set_option maxRecDepth 16384

noncomputable section

namespace Cert.Policy.Bridge

open Cert.Policy Idealize.ShloMosaic Idealize.ShloMosaic.TcCoe Idealize.ShloMosaic.ValueIdx Idealize.SL.Sem

-- the kernel's launch memory and the reference's, agreeing on the nine arguments
variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)

/-- The arguments' agreement on one core, as the claim states it. -/
abbrev Agree (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)

/-- The reference's score column on the reference's arguments. -/
abbrev refColumn (c : Dev Cert.KernelIdeal.nD) : Cert.ReferenceIdeal.S262144x1.Idx → EReal :=
  Cert.ReferenceIdeal.Read.val_main_v14 (F := Ideal)
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))
    (m' ((c.tc : Thread Cert.ReferenceIdeal.nD Cert.ReferenceIdeal.τ).loc Cert.ReferenceIdeal.main_arg7))
    (m' ((c.tc : Thread Cert.ReferenceIdeal.nD Cert.ReferenceIdeal.τ).loc Cert.ReferenceIdeal.main_arg8))

/-- The two score columns agree: entry r of each is the score of the pair in row r of the flattened arguments. -/
theorem columns_eq (c : Dev Cert.KernelIdeal.nD) (h : Agree m m' c) :
    ScoreRegion.scores (Cert.KernelIdeal.Gen.V1 m ρ) c = refColumn m' c := by
  obtain ⟨h0, h1, h2, h3, h4, h5, h6, h7, h8⟩ := h
  funext i
  obtain ⟨r, u, rfl⟩ : ∃ (r : Fin 262144) (u : Fin 1), i = ix2 r u := ⟨i 0, i 1, eq_ix2 i⟩
  rw [refColumn, Ref.score_apply, h0, h1, h3, h4, h5, h6, h7, h8]
  unfold ScoreRegion.scores
  rw [KernelSide.states_entered, KernelSide.actions_entered, KernelSide.bias1_entered, KernelSide.bias3_entered,
    KernelSide.weight1_entered, KernelSide.weight2_entered, KernelSide.weight3_entered, KernelSide.output_entered]
  have hb1 : (fun j : Fin 512 => shapeCast Cert.KernelIdeal.S1x512 (m ((c : Thread Cert.KernelIdeal.nD Cert.KernelIdeal.τ).loc Cert.KernelIdeal.main_arg5)) Cert.KernelIdeal.Facts₀.shapeCasts_S512_S1x512 (ix2 (0 : Fin 1) j))
      = fun j : Fin 512 => m ((c : Thread Cert.KernelIdeal.nD Cert.KernelIdeal.τ).loc Cert.KernelIdeal.main_arg5) (ix1 j) :=
    funext fun j => shapeCast_a_1a_apply _ _ (0 : Fin 1) j
  have hb3 : (fun j : Fin 512 => shapeCast Cert.KernelIdeal.S1x512 (m ((c : Thread Cert.KernelIdeal.nD Cert.KernelIdeal.τ).loc Cert.KernelIdeal.main_arg7)) Cert.KernelIdeal.Facts₀.shapeCasts_S512_S1x512 (ix2 (0 : Fin 1) j))
      = fun j : Fin 512 => m ((c : Thread Cert.KernelIdeal.nD Cert.KernelIdeal.τ).loc Cert.KernelIdeal.main_arg7) (ix1 j) :=
    funext fun j => shapeCast_a_1a_apply _ _ (0 : Fin 1) j
  rw [hb1, hb3]
  rfl

/-- So the two score tables agree: each is its column viewed as trajectories × steps. -/
theorem tables_eq (c : Dev Cert.KernelIdeal.nD) (h : Agree m m' c) :
    KernelSide.scoreTable m ρ c
      = Cert.ReferenceIdeal.Read.val_main_v15 (F := Ideal)
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7))
          (m' ((c.tc : Thread Cert.ReferenceIdeal.nD Cert.ReferenceIdeal.τ).loc Cert.ReferenceIdeal.main_arg8)) := by
  unfold KernelSide.scoreTable Cert.ReferenceIdeal.Read.val_main_v15
  rw [columns_eq m ρ m' c h]

/-- The reference's weights are the kernel's. -/
theorem weights_eq (c : Dev Cert.KernelIdeal.nD) (h : Agree m m' c) :
    Cert.ReferenceIdeal.Read.val_main_v26 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
      = shapeCast Cert.KernelIdeal.S1024 (fun i : Cert.KernelIdeal.S1024x1.Idx =>
          weight (KernelSide.scoreTable m ρ c) (m ((c : Thread Cert.KernelIdeal.nD Cert.KernelIdeal.τ).loc Cert.KernelIdeal.main_arg2)) (i 0))
          Cert.KernelIdeal.Facts₀.shapeCasts_S1024x1_S1024 := by
  funext j
  obtain ⟨n, rfl⟩ : ∃ n : Fin 1024, j = ix1 n := ⟨j 0, eq_ix1 j⟩
  rw [Ref.weight_apply, ← tables_eq m ρ m' c h, h.2.2.1]
  exact (shapeCast_a1_a_apply (fun i : Cert.KernelIdeal.S1024x1.Idx =>
    weight (KernelSide.scoreTable m ρ c) (m ((c : Thread Cert.KernelIdeal.nD Cert.KernelIdeal.τ).loc Cert.KernelIdeal.main_arg2)) (i 0)) _ n).symm

/-- The reference's summed scores are the kernel's. -/
theorem sums_eq (c : Dev Cert.KernelIdeal.nD) (h : Agree m m' c) :
    Cert.ReferenceIdeal.Read.val_main_v16 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
      = shapeCast Cert.KernelIdeal.S1024 (fun i : Cert.KernelIdeal.S1024x1.Idx => stepSum (KernelSide.scoreTable m ρ c) (i 0))
          Cert.KernelIdeal.Facts₀.shapeCasts_S1024x1_S1024 := by
  funext j
  obtain ⟨n, rfl⟩ : ∃ n : Fin 1024, j = ix1 n := ⟨j 0, eq_ix1 j⟩
  rw [Ref.sum_apply, ← tables_eq m ρ m' c h]
  exact (shapeCast_a1_a_apply (fun i : Cert.KernelIdeal.S1024x1.Idx => stepSum (KernelSide.scoreTable m ρ c) (i 0)) _ n).symm

end Cert.Policy.Bridge

end
-- ==== Proof.lean ====
/-
  Importance weights of a batch of trajectories under a two-layer tanh score, computed two ways.

  Both programs take 1024 trajectories of 256 (state, action) steps, a reward per step, and the weights of a network
  that scores a step: h = tanh (s·W1 + a·W2 + b1), h' = tanh (h·W3 + b3), score = h'·w. Per trajectory they sum the
  scores and the rewards over the steps; the difference of the sums, shifted by its largest value over the batch and
  exponentiated, is normalized by the total of those exponentials. They return the normalized weights and the summed
  scores.

  The reference does this with whole-array operations. The kernel scores the 262144 steps in 128 blocks of 2048 rows on
  the matrix unit (narrowing its operands to a shorter float format first) and then, in a second launch on the whole
  1024 × 256 table, takes the sums, the maximum, the exponentials and the quotient.

  Over the extended reals, where a change of float format is the identity and every sum is a plain finite sum, the two
  are the same function of the arguments: a step's score depends on that step's own rows and on the weights only, so
  scoring by blocks is scoring row by row; a matrix product accumulated into a zero block is the product; a maximum
  started from −∞ is a supremum, over the same 1024 values on both sides; and the sums that start from zero are the
  sums. No step of the argument moves a factor across a sum or cancels anything, so nothing here needs a value to be
  finite, and the precondition is not opened.

  The three programs run, without fault and leaving their arguments as they were: for the two kernel programs this is
  the generated frame of a program of two launches among reshapes; for the reference, its generated run with the
  results dropped. The idealized kernel is the kernel's own text read over the extended reals: the idealization
  rewrote nothing, so there is nothing to preserve.
-/
import proofs.«173706_g71854802862086_cont_9to1_m_883_1_alg».proof.Defs
import proofs.«173706_g71854802862086_cont_9to1_m_883_1_alg».proof.Proof.Gen.Kernel
import proofs.«173706_g71854802862086_cont_9to1_m_883_1_alg».proof.Proof.Gen.Kernel.Skeleton
import proofs.«173706_g71854802862086_cont_9to1_m_883_1_alg».proof.Proof.Gen.Kernel.Launch
import proofs.«173706_g71854802862086_cont_9to1_m_883_1_alg».proof.Proof.Gen.Kernel.Points
import proofs.«173706_g71854802862086_cont_9to1_m_883_1_alg».proof.Proof.Gen.Kernel.Frame
import proofs.«173706_g71854802862086_cont_9to1_m_883_1_alg».proof.Proof.Gen.KernelIdeal
import proofs.«173706_g71854802862086_cont_9to1_m_883_1_alg».proof.Proof.Gen.KernelIdeal.Skeleton
import proofs.«173706_g71854802862086_cont_9to1_m_883_1_alg».proof.Proof.Gen.KernelIdeal.Launch
import proofs.«173706_g71854802862086_cont_9to1_m_883_1_alg».proof.Proof.Gen.KernelIdeal.Points
import proofs.«173706_g71854802862086_cont_9to1_m_883_1_alg».proof.Proof.Gen.KernelIdeal.Frame
import proofs.«173706_g71854802862086_cont_9to1_m_883_1_alg».proof.Proof.Gen.ReferenceIdeal
import proofs.«173706_g71854802862086_cont_9to1_m_883_1_alg».proof.Proof.Gen.Pre_finite_inputs
import proofs.«173706_g71854802862086_cont_9to1_m_883_1_alg».proof.Proof.Gen.ReferenceIdeal.Run
import proofs.«173706_g71854802862086_cont_9to1_m_883_1_alg».proof.Proof.Gen.ReferenceIdeal.Read
import proofs.«173706_g71854802862086_cont_9to1_m_883_1_alg».proof.Proof.Bridge
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says of the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the arguments both programs end with the same weights and the same summed scores: the
    kernel's results are the weights and sums of its score table, the reference's of its own, and the two tables agree
    entry by entry. -/
theorem algebraic : Cert.algebraic_KernelIdeal_ReferenceIdeal := by
  intro m ρ m' ρ' _ hagree
  refine ⟨_, _, Cert.Policy.KernelSide.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v26_eq]
    exact Cert.Policy.Bridge.weights_eq m ρ m' c (hagree c)
  · exact Cert.Policy.Bridge.sums_eq m ρ m' c (hagree c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
